-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x256 : Shape := ⟨2, ![1024, 256]⟩
abbrev S256x4096 : Shape := ⟨2, ![256, 4096]⟩
abbrev S4096 : Shape := ⟨1, ![4096]⟩
abbrev S4096x256 : Shape := ⟨2, ![4096, 256]⟩
abbrev S256x1024 : Shape := ⟨2, ![256, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x4096 : S_.BroadcastsInDim S256x4096 (![] : Fin 0 → Fin S256x4096.rank)
  reducesTo_S256x4096_S_d0_1 : S256x4096.ReducesTo [0, 1] S_
  bcast_S_S4096 : S_.BroadcastsInDim S4096 (![] : Fin 0 → Fin S4096.rank)
  reducesTo_S4096_S_d0 : S4096.ReducesTo [0] S_
  bcast_S_S4096x256 : S_.BroadcastsInDim S4096x256 (![] : Fin 0 → Fin S4096x256.rank)
  reducesTo_S4096x256_S_d0_1 : S4096x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x256 .f32) (main_arg5 : FVec F S256x1024 .f32) (main_arg6 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024x256 .f32) (main_arg2 : FVec F S256x4096 .f32) (main_arg3 : FVec F S4096 .f32) (main_arg4 : FVec F S4096x256 .f32) (main_arg5 : FVec F S256x1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S4x4096x1024 : Shape := ⟨3, ![4, 4096, 1024]⟩
abbrev S1024x256 : Shape := ⟨2, ![1024, 256]⟩
abbrev S256x4096 : Shape := ⟨2, ![256, 4096]⟩
abbrev S4096 : Shape := ⟨1, ![4096]⟩
abbrev S4096x256 : Shape := ⟨2, ![4096, 256]⟩
abbrev S256x1024 : Shape := ⟨2, ![256, 1024]⟩
abbrev S1024 : Shape := ⟨1, ![1024]⟩
abbrev S16384x1024 : Shape := ⟨2, ![16384, 1024]⟩
abbrev S1x4096 : Shape := ⟨2, ![1, 4096]⟩
abbrev S1x1024 : Shape := ⟨2, ![1, 1024]⟩
abbrev S16384x256 : Shape := ⟨2, ![16384, 256]⟩
abbrev S1024x1024 : Shape := ⟨2, ![1024, 1024]⟩

abbrev nBuf : Space → Nat
  | .hbm => 18
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S1024x256, .f32⟩
  | .hbm, ⟨2, _⟩ => ⟨S256x4096, .f32⟩
  | .hbm, ⟨3, _⟩ => ⟨S4096, .f32⟩
  | .hbm, ⟨4, _⟩ => ⟨S4096x256, .f32⟩
  | .hbm, ⟨5, _⟩ => ⟨S256x1024, .f32⟩
  | .hbm, ⟨6, _⟩ => ⟨S1024, .f32⟩
  | .hbm, ⟨7, _⟩ => ⟨S16384x1024, .f32⟩
  | .hbm, ⟨8, _⟩ => ⟨S16384x1024, .bf16⟩
  | .hbm, ⟨9, _⟩ => ⟨S1024x256, .bf16⟩
  | .hbm, ⟨10, _⟩ => ⟨S256x4096, .bf16⟩
  | .hbm, ⟨11, _⟩ => ⟨S4096x256, .bf16⟩
  | .hbm, ⟨12, _⟩ => ⟨S256x1024, .bf16⟩
  | .hbm, ⟨13, _⟩ => ⟨S1x4096, .f32⟩
  | .hbm, ⟨14, _⟩ => ⟨S1x1024, .f32⟩
  | .hbm, ⟨15, _⟩ => ⟨S16384x256, .bf16⟩
  | .hbm, ⟨16, _⟩ => ⟨S16384x1024, .f32⟩
  | .hbm, ⟨17, _⟩ => ⟨S4x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_17 : BitVec 32 := 0#32
  let v36 : BitVec 1 := Scalar.cmpi .ne v35 c0_i32_17
  v36

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S256x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S4x4096x1024_S16384x1024 : S4x4096x1024.ShapeCasts S16384x1024
  bitsLt_bf16_f32 : FTy.bits .bf16 < FTy.bits .f32
  shapeCasts_S4096_S1x4096 : S4096.ShapeCasts S1x4096
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x1024_S4x4096x1024 : S16384x1024.ShapeCasts S4x4096x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .bf16 = 32 ∨ (Rect.block (s := S16384x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .bf16 = 32 ∨ (Rect.block (s := S16384x256) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S16384x256.size a
  hwx1_0 : ∀ i : grid1.Coords, EltTy.bits .bf16 = 32 ∨ (Rect.block (s := S16384x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x4096.size a
  hwx1_1 : ∀ i : grid1.Coords, EltTy.bits .bf16 = 32 ∨ (Rect.block (s := S256x4096) S256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S4096x256.size a
  hwx1_3 : ∀ i : grid1.Coords, EltTy.bits .bf16 = 32 ∨ (Rect.block (s := S4096x256) S1024x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S256x1024.size a
  hwx1_4 : ∀ i : grid1.Coords, EltTy.bits .bf16 = 32 ∨ (Rect.block (s := S256x1024) S256x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S16384x1024.size a
  hwx1_6 : ∀ i : grid1.Coords, EltTy.bits .f32 = 32 ∨ (Rect.block (s := S16384x1024) S1024x1024.size (cc1_transform_6 i) (hinb1_6 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S256x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1024x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x256 : Shape := ⟨2, ![1024, 256]⟩
abbrev S256x4096 : Shape := ⟨2, ![256, 4096]⟩
abbrev S4096 : Shape := ⟨1, ![4096]⟩
abbrev S4096x256 : Shape := ⟨2, ![4096, 256]⟩
abbrev S256x1024 : Shape := ⟨2, ![256, 1024]⟩
abbrev S1024 : Shape := ⟨1, ![1024]⟩
abbrev S4x4096x256 : Shape := ⟨3, ![4, 4096, 256]⟩
abbrev S4x4096x4096 : Shape := ⟨3, ![4, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x256, .f32⟩
  | .hbm, ⟨2, _⟩ => ⟨S256x4096, .f32⟩
  | .hbm, ⟨3, _⟩ => ⟨S4096, .f32⟩
  | .hbm, ⟨4, _⟩ => ⟨S4096x256, .f32⟩
  | .hbm, ⟨5, _⟩ => ⟨S256x1024, .f32⟩
  | .hbm, ⟨6, _⟩ => ⟨S1024, .f32⟩
  | .hbm, ⟨7, _⟩ => ⟨S4x4096x256, .f32⟩
  | .hbm, ⟨8, _⟩ => ⟨S4x4096x4096, .f32⟩
  | .hbm, ⟨9, _⟩ => ⟨S1x1x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x256, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S1024x256_S4x4096x256_2_0_01_1_n_n_wf : DotDims.WF S4x4096x1024 S1024x256 S4x4096x256 [2] [0] [0, 1] [1] [] []
  dot_S4x4096x256_S256x4096_S4x4096x4096_2_0_01_1_n_n_wf : DotDims.WF S4x4096x256 S256x4096 S4x4096x4096 [2] [0] [0, 1] [1] [] []
  dot_S4x4096x4096_S4096x256_S4x4096x256_2_0_01_1_n_n_wf : DotDims.WF S4x4096x4096 S4096x256 S4x4096x256 [2] [0] [0, 1] [1] [] []
  dot_S4x4096x256_S256x1024_S4x4096x1024_2_0_01_1_n_n_wf : DotDims.WF S4x4096x256 S256x1024 S4x4096x1024 [2] [0] [0, 1] [1] [] []

variable [Facts₀]

def dot_S4x4096x1024_S1024x256_S4x4096x256_2_0_01_1_n_n : DotDims S4x4096x1024 S1024x256 S4x4096x256 where
  lhsContracting := [2]
  rhsContracting := [0]
  lhsNonContracting := [0, 1]
  rhsNonContracting := [1]
  lhsBatch := []
  rhsBatch := []
  wf := dot_S4x4096x1024_S1024x256_S4x4096x256_2_0_01_1_n_n_wf
def dot_S4x4096x256_S256x4096_S4x4096x4096_2_0_01_1_n_n : DotDims S4x4096x256 S256x4096 S4x4096x4096 where
  lhsContracting := [2]
  rhsContracting := [0]
  lhsNonContracting := [0, 1]
  rhsNonContracting := [1]
  lhsBatch := []
  rhsBatch := []
  wf := dot_S4x4096x256_S256x4096_S4x4096x4096_2_0_01_1_n_n_wf
def dot_S4x4096x4096_S4096x256_S4x4096x256_2_0_01_1_n_n : DotDims S4x4096x4096 S4096x256 S4x4096x256 where
  lhsContracting := [2]
  rhsContracting := [0]
  lhsNonContracting := [0, 1]
  rhsNonContracting := [1]
  lhsBatch := []
  rhsBatch := []
  wf := dot_S4x4096x4096_S4096x256_S4x4096x256_2_0_01_1_n_n_wf
def dot_S4x4096x256_S256x1024_S4x4096x1024_2_0_01_1_n_n : DotDims S4x4096x256 S256x1024 S4x4096x1024 where
  lhsContracting := [2]
  rhsContracting := [0]
  lhsNonContracting := [0, 1]
  rhsNonContracting := [1]
  lhsBatch := []
  rhsBatch := []
  wf := dot_S4x4096x256_S256x1024_S4x4096x1024_2_0_01_1_n_n_wf

class Facts : Prop extends Facts₀ where

variable [Facts]
-- ==== Proof.FrameKernel.Region0.lean ====
/-
  The first pallas_call: P = x2 · U1, one row tile of 1024 rows per grid point.
  Every point loads its tile of x2 and the whole of U1, multiplies them into a zero accumulator and
  stores the product, re-formatted, as its tile of P. Stated at a parameter V, the buffer contents the
  region is entered from: what each window's staging buffer holds after the body, the body's triple,
  the region's proof data and its body obligation.
-/
import proofs.«112399_j85529978733276_1_alg».proof.Proof.Gen.Kernel.Launch
import proofs.«112399_j85529978733276_1_alg».proof.Proof.Gen.Kernel.Skeleton
import proofs.«112399_j85529978733276_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of x2 is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- U1, fetched once, is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S1024x1024 := Rect.unit (s := S1024x1024) ![0, 0] S1024x1024.size inb_S1024x1024_S1024x1024_0_0
abbrev rP0 : Rect S1024x256 := Rect.unit (s := S1024x256) ![0, 0] S1024x256.size inb_S1024x256_S1024x256_0_0

/-- The tile of P a point stores, from its tile of x2 and U1. -/
def out0_2 (x0 : Vec F S1024x1024 .bf16) (x1 : Vec F S1024x256 .bf16) : Vec F S1024x256 .bf16 :=
  View.canon [⟨rP0, k0_pay1 (View.ld x0 rX0) (View.ld x1 rP0)⟩]

/-- The one store covers the buffer. -/
theorem cover0_2 (p0 : Vec F S1024x256 .bf16) (y : S1024x256.Idx) :
    ∃ pc ∈ ([⟨rP0, p0⟩] : List (View.Piece (Elt F) S1024x256 .bf16)), y ∈ pc.1.set :=
  View.cover_of_tiled [⟨rP0, p0⟩] S1024x256.size (by rfl) y

/-! ## The body's triple -/

set_option maxHeartbeats 1000000 in
/-- On whole staging buffers, the inputs' at x0 and x1 and the output's at anything, the body runs to the
    continuation with the inputs' as they were and the output's at out0_2 x0 x1. -/
theorem sound_kernel0 (c : Dev nD) (E : Set ℕ) (i : grid0.Coords)
    (arg1 : Memref sig .tc .vmem S1024x1024 .bf16) (harg1 : arg1.IsWhole) (arg2 : Memref sig .tc .vmem S1024x256 .bf16) (harg2 : arg2.IsWhole)
    (arg3 : Memref sig .tc .vmem S1024x256 .bf16) (harg3 : arg3.IsWhole)
    (x0 : Vec F S1024x1024 .bf16) (x1 : Vec F S1024x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body each input's buffer at its block and the output's at
    the stored tile; the invariant the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.FrameKernel.Region1Runs.lean ====
/-
  The second pallas_call's body, run once in each of the three ways its two conditionals go over the
  grid (M tile, F tile). The accumulator Q lives in a scratch buffer kept from one F tile to the next:
    first F tile   : Q is zeroed, then Q := Q + gelu(P·V1 + b1)·U2 on this tile;
    middle F tiles : Q := Q + gelu(P·V1 + b1)·U2;
    last F tile    : the same update, then the output tile Q·V2 + b2 is stored.
  Each run is stated on whole staging buffers and says what the scratch, and at the last F tile the
  output buffer, hold afterwards, as the body's own arithmetic of what it loaded.
-/
import proofs.«112399_j85529978733276_1_alg».proof.Proof.Gen.Kernel.Launch
import proofs.«112399_j85529978733276_1_alg».proof.Proof.Gen.Kernel.Skeleton
import proofs.«112399_j85529978733276_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions over the grid -/

/-- The first conditional: the F coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional: the F coordinate is the last, 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Whole-buffer accesses -/

theorem hz2 : (![0, 0] : Fin 2 → Nat) = fun _ => 0 := by
  funext a; fin_cases a <;> rfl

abbrev rQ : Rect S1024x256 := Rect.unit (s := S1024x256) ![0, 0] S1024x256.size inb_S1024x256_S1024x256_0_0
abbrev rO : Rect S1024x1024 := Rect.unit (s := S1024x1024) ![0, 0] S1024x1024.size inb_S1024x1024_S1024x1024_0_0

abbrev rV : Rect S256x1024 := Rect.unit (s := S256x1024) ![0, 0] S256x1024.size inb_S256x1024_S256x1024_0_0
abbrev rB : Rect S1x1024 := Rect.unit (s := S1x1024) ![0, 0] S1x1024.size inb_S1x1024_S1x1024_0_0

/-- Every index lies in the rectangle that is the whole shape. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A list of stores whose last one is of the whole buffer covers it. -/
theorem coverQ (p0 : Vec F S1024x256 .f32) (L : List (View.Piece (Elt F) S1024x256 .f32)) (y : S1024x256.Idx) :
    ∃ pc ∈ ((⟨rQ, p0⟩ : View.Piece (Elt F) S1024x256 .f32) :: L), y ∈ pc.1.set :=
  ⟨_, List.mem_cons_self, mem_unit_zero hz2 inb_S1024x256_S1024x256_0_0 y⟩
theorem coverO (p0 : Vec F S1024x1024 .f32) (y : S1024x1024.Idx) :
    ∃ pc ∈ ([⟨rO, p0⟩] : List (View.Piece (Elt F) S1024x1024 .f32)), y ∈ pc.1.set :=
  ⟨_, List.mem_cons_self, mem_unit_zero hz2 inb_S1024x1024_S1024x1024_0_0 y⟩

/-! ## What the stores leave, as the body's arithmetic of its loads -/

/-- The scratch after an update from contents xs: Q + gelu(P·V1 + b1)·U2 on this tile. -/
def scUpd (x0 : Vec F S1024x256 .bf16) (x1 : Vec F S256x1024 .bf16) (x2 : Vec F S1x1024 .f32) (x3 : Vec F S1024x256 .bf16)
    (xs : Vec F S1024x256 .f32) : Vec F S1024x256 .f32 :=
  View.canon [⟨rQ, k1_pay3 (View.ld x0 rQ) (View.ld x1 rV) (View.ld x2 rB) (View.ld x3 rQ) (View.ld xs rQ)⟩]
/-- The scratch after the first F tile: zeroed, then updated. -/
def scFirst (x0 : Vec F S1024x256 .bf16) (x1 : Vec F S256x1024 .bf16) (x2 : Vec F S1x1024 .f32) (x3 : Vec F S1024x256 .bf16) :
    Vec F S1024x256 .f32 :=
  View.canon [⟨rQ, k1_pay3 (View.ld x0 rQ) (View.ld x1 rV) (View.ld x2 rB) (View.ld x3 rQ) k1_pay2⟩, ⟨rQ, k1_pay2⟩]
/-- The output tile stored at the last F tile: Q·V2 + b2 of the updated scratch. -/
def outLast (x0 : Vec F S1024x256 .bf16) (x1 : Vec F S256x1024 .bf16) (x2 : Vec F S1x1024 .f32) (x3 : Vec F S1024x256 .bf16)
    (x4 : Vec F S256x1024 .bf16) (x5 : Vec F S1x1024 .f32) (xs : Vec F S1024x256 .f32) : Vec F S1024x1024 .f32 :=
  View.canon [⟨rO, k1_pay1 (View.ld x4 rV) (k1_pay3 (View.ld x0 rQ) (View.ld x1 rV) (View.ld x2 rB) (View.ld x3 rQ) (View.ld xs rQ)) (View.ld x5 rB)⟩]

theorem scUpd_eq (x0 : Vec F S1024x256 .bf16) (x1 : Vec F S256x1024 .bf16) (x2 : Vec F S1x1024 .f32) (x3 : Vec F S1024x256 .bf16)
    (xs : Vec F S1024x256 .f32) : scUpd x0 x1 x2 x3 xs = k1_pay3 x0 x1 x2 x3 xs := by
  unfold scUpd
  rw [View.canon_unit_zero (S := S1024x256) hz2, View.ld_unit_zero (S := S1024x256) hz2, View.ld_unit_zero (S := S256x1024) hz2,
    View.ld_unit_zero (S := S1x1024) hz2, View.ld_unit_zero (S := S1024x256) hz2, View.ld_unit_zero (S := S1024x256) hz2]
theorem scFirst_eq (x0 : Vec F S1024x256 .bf16) (x1 : Vec F S256x1024 .bf16) (x2 : Vec F S1x1024 .f32) (x3 : Vec F S1024x256 .bf16) :
    scFirst x0 x1 x2 x3 = k1_pay3 x0 x1 x2 x3 k1_pay2 := by
  unfold scFirst
  rw [View.canon_cons_unit_zero (S := S1024x256) hz2, View.ld_unit_zero (S := S1024x256) hz2, View.ld_unit_zero (S := S256x1024) hz2,
    View.ld_unit_zero (S := S1x1024) hz2, View.ld_unit_zero (S := S1024x256) hz2]
theorem outLast_eq (x0 : Vec F S1024x256 .bf16) (x1 : Vec F S256x1024 .bf16) (x2 : Vec F S1x1024 .f32) (x3 : Vec F S1024x256 .bf16)
    (x4 : Vec F S256x1024 .bf16) (x5 : Vec F S1x1024 .f32) (xs : Vec F S1024x256 .f32) :
    outLast x0 x1 x2 x3 x4 x5 xs = k1_pay1 x4 (k1_pay3 x0 x1 x2 x3 xs) x5 := by
  unfold outLast
  rw [View.canon_unit_zero (S := S1024x1024) hz2, View.ld_unit_zero (S := S256x1024) hz2, View.ld_unit_zero (S := S1024x256) hz2,
    View.ld_unit_zero (S := S256x1024) hz2, View.ld_unit_zero (S := S1x1024) hz2, View.ld_unit_zero (S := S1024x256) hz2,
    View.ld_unit_zero (S := S1024x256) hz2, View.ld_unit_zero (S := S1x1024) hz2]

/-! ## The three runs -/

set_option maxHeartbeats 400000 in
/-- First F tile: the scratch, at anything before, ends at the update of the zero accumulator; the output buffer
    is handed back untouched. -/
theorem run1_first (c : Dev nD) (E : Set ℕ) (i : grid1.Coords)
    (arg2 : Memref sig .tc .vmem S1024x256 .bf16) (harg2 : arg2.IsWhole) (arg3 : Memref sig .tc .vmem S256x1024 .bf16) (harg3 : arg3.IsWhole)
    (arg4 : Memref sig .tc .vmem S1x1024 .f32) (harg4 : arg4.IsWhole) (arg5 : Memref sig .tc .vmem S1024x256 .bf16) (harg5 : arg5.IsWhole)
    (arg6 : Memref sig .tc .vmem S256x1024 .bf16) (harg6 : arg6.IsWhole) (arg7 : Memref sig .tc .vmem S1x1024 .f32) (harg7 : arg7.IsWhole)
    (arg8 : Memref sig .tc .vmem S1024x1024 .f32) (harg8 : arg8.IsWhole) (arg9 : Memref sig .tc .vmem S1024x256 .f32) (harg9 : arg9.IsWhole)
    (hc0 : cond1_0 i) (hc1 : ¬cond1_1 i)
    (x0 : Vec F S1024x256 .bf16) (x1 : Vec F S256x1024 .bf16) (x2 : Vec F S1x1024 .f32) (x3 : Vec F S1024x256 .bf16)
    (x4 : Vec F S256x1024 .bf16) (x5 : Vec F S1x1024 .f32) (xi6 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (scFirst x0 x1 x2 x3)) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9) K := by
  simp only [cc1__flash_kernel_eq_skeleton]; unfold cc1__flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HS
  ipureintro
  sl_unfold_words
  rw [View.readCov_unit_zero (S := S1024x256) _ hz2]
  exact View.read_writes_eq_canon _ _ _ (coverQ _ _)

set_option maxHeartbeats 400000 in
/-- A middle F tile: the scratch goes from what the tile before left to its update; the output buffer is handed
    back untouched. -/
theorem run1_mid (c : Dev nD) (E : Set ℕ) (i : grid1.Coords)
    (arg2 : Memref sig .tc .vmem S1024x256 .bf16) (harg2 : arg2.IsWhole) (arg3 : Memref sig .tc .vmem S256x1024 .bf16) (harg3 : arg3.IsWhole)
    (arg4 : Memref sig .tc .vmem S1x1024 .f32) (harg4 : arg4.IsWhole) (arg5 : Memref sig .tc .vmem S1024x256 .bf16) (harg5 : arg5.IsWhole)
    (arg6 : Memref sig .tc .vmem S256x1024 .bf16) (harg6 : arg6.IsWhole) (arg7 : Memref sig .tc .vmem S1x1024 .f32) (harg7 : arg7.IsWhole)
    (arg8 : Memref sig .tc .vmem S1024x1024 .f32) (harg8 : arg8.IsWhole) (arg9 : Memref sig .tc .vmem S1024x256 .f32) (harg9 : arg9.IsWhole)
    (hc0 : ¬cond1_0 i) (hc1 : ¬cond1_1 i)
    (x0 : Vec F S1024x256 .bf16) (x1 : Vec F S256x1024 .bf16) (x2 : Vec F S1x1024 .f32) (x3 : Vec F S1024x256 .bf16)
    (x4 : Vec F S256x1024 .bf16) (x5 : Vec F S1x1024 .f32) (xi6 : Vec F S1024x1024 .f32) (xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (scUpd x0 x1 x2 x3 xs)) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9) K := by
  simp only [cc1__flash_kernel_eq_skeleton]; unfold cc1__flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HS
  ipureintro
  sl_unfold_words
  exact View.read_writes_eq_canon _ _ _ (coverQ _ _)

set_option maxHeartbeats 400000 in
/-- The last F tile: the scratch is updated as before, and the output buffer, at anything before, ends at
    Q·V2 + b2 of the updated scratch. -/
theorem run1_last (c : Dev nD) (E : Set ℕ) (i : grid1.Coords)
    (arg2 : Memref sig .tc .vmem S1024x256 .bf16) (harg2 : arg2.IsWhole) (arg3 : Memref sig .tc .vmem S256x1024 .bf16) (harg3 : arg3.IsWhole)
    (arg4 : Memref sig .tc .vmem S1x1024 .f32) (harg4 : arg4.IsWhole) (arg5 : Memref sig .tc .vmem S1024x256 .bf16) (harg5 : arg5.IsWhole)
    (arg6 : Memref sig .tc .vmem S256x1024 .bf16) (harg6 : arg6.IsWhole) (arg7 : Memref sig .tc .vmem S1x1024 .f32) (harg7 : arg7.IsWhole)
    (arg8 : Memref sig .tc .vmem S1024x1024 .f32) (harg8 : arg8.IsWhole) (arg9 : Memref sig .tc .vmem S1024x256 .f32) (harg9 : arg9.IsWhole)
    (hc0 : ¬cond1_0 i) (hc1 : cond1_1 i)
    (x0 : Vec F S1024x256 .bf16) (x1 : Vec F S256x1024 .bf16) (x2 : Vec F S1x1024 .f32) (x3 : Vec F S1024x256 .bf16)
    (x4 : Vec F S256x1024 .bf16) (x5 : Vec F S1x1024 .f32) (xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (outLast x0 x1 x2 x3 x4 x5 xs) ∗ owns (c : Thread nD τ) arg9 fullShare (scUpd x0 x1 x2 x3 xs)) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9) K := by
  simp only [cc1__flash_kernel_eq_skeleton]; unfold cc1__flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.readCov_unit_zero (S := S1024x256) _ hz2]
    exact View.read_writes_eq_canon _ _ _ (coverO _)
  iexists _; isplitr
  swap; · iexact HS
  ipureintro
  sl_unfold_words
  exact View.read_writes_eq_canon _ _ _ (coverQ _ _)

end Cert.Kernel.Frame

end
-- ==== Proof.FrameKernel.Region1.lean ====
/-
  The second pallas_call on the grid (16 M tiles) × (4 F tiles), M-major. The accumulator Q of an M tile lives in a
  scratch buffer that is zeroed at the tile's first F point and added to at each of its four F points; the output
  tile is stored, and written back, only at the fourth. Here: what the scratch holds after each grid point, by
  recursion on the point; the region's invariant, which carries the scratch at those contents from one point to the
  next; the proof data; and the body obligation, the point's case read off its index modulo 4.
-/
import proofs.«112399_j85529978733276_1_alg».proof.Proof.FrameKernel.Region1Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or carried over. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last F tile the output window is idle, -/
theorem idleAt1_6 : ∀ t : Fin cfg1.N, ¬cond1_1 (grid1.coords t) → cfg1.idle 6 (grid1.coords t) = true := by decide +kernel
/-- and is not written back; -/
theorem noFlush1_6 : ∀ t : Fin cfg1.N, ¬cond1_1 (grid1.coords t) → (cfg1.win 6).flush t = false := by decide +kernel
/-- at the last F tile it is live. -/
theorem liveAt1_6 : ∀ t : Fin cfg1.N, cond1_1 (grid1.coords t) → cfg1.idle 6 (grid1.coords t) = false := by decide +kernel

/-! ## The scratch after each point -/

/-- The accumulator after the body at position n: restarted from zero at the first F tile of an M tile, otherwise
    updated from what the position before left. -/
def scAt (c : Dev nD) : (n : ℕ) → n < cfg1.N → Vec F S1024x256 .f32
  | 0, hn => scFirst (iblk1 V c 0 ⟨0, hn⟩) (iblk1 V c 1 ⟨0, hn⟩) (iblk1 V c 2 ⟨0, hn⟩) (iblk1 V c 3 ⟨0, hn⟩)
  | n + 1, hn =>
    if (n + 1) % 4 = 0 then scFirst (iblk1 V c 0 ⟨n + 1, hn⟩) (iblk1 V c 1 ⟨n + 1, hn⟩) (iblk1 V c 2 ⟨n + 1, hn⟩) (iblk1 V c 3 ⟨n + 1, hn⟩)
    else scUpd (iblk1 V c 0 ⟨n + 1, hn⟩) (iblk1 V c 1 ⟨n + 1, hn⟩) (iblk1 V c 2 ⟨n + 1, hn⟩) (iblk1 V c 3 ⟨n + 1, hn⟩) (scAt c n (Nat.lt_of_succ_lt hn))

theorem scAt_first (c : Dev nD) (t : Fin cfg1.N) (h0 : t.val % 4 = 0) :
    scAt V c t.val t.isLt = scFirst (iblk1 V c 0 t) (iblk1 V c 1 t) (iblk1 V c 2 t) (iblk1 V c 3 t) := by
  obtain ⟨n, hn⟩ := t
  cases n with
  | zero => rfl
  | succ n => exact (if_pos h0)

theorem scAt_next (c : Dev nD) (t : Fin cfg1.N) (h0 : ¬t.val % 4 = 0) :
    scAt V c t.val t.isLt = scUpd (iblk1 V c 0 t) (iblk1 V c 1 t) (iblk1 V c 2 t) (iblk1 V c 3 t) (scAt V c (t.val - 1) (Nat.lt_of_le_of_lt (Nat.sub_le _ _) t.isLt)) := by
  obtain ⟨n, hn⟩ := t
  cases n with
  | zero => exact absurd (Nat.zero_mod _) h0
  | succ n => exact (if_neg h0)

/-- The output tile stored at a last F tile, from the scratch the position before left. -/
def outAt (c : Dev nD) (t : Fin cfg1.N) : Vec F S1024x1024 .f32 :=
  outLast (iblk1 V c 0 t) (iblk1 V c 1 t) (iblk1 V c 2 t) (iblk1 V c 3 t) (iblk1 V c 4 t) (iblk1 V c 5 t) (scAt V c (t.val - 1) (Nat.lt_of_le_of_lt (Nat.sub_le _ _) t.isLt))

/-! ## The invariant -/

/-- The scratch operand: a whole scoped buffer of the kernel's own. -/
abbrev scM : Memref sig .tc .vmem S1024x256 .f32 := Memref.whole cc1_scratch0

/-- The class's invariant with the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM fullShare d)) ∗ (∃ r, prngReg c r)) := by
  unfold Pipeline.ΦA; rw [scopedRest1_eq]; simp only [scM, owns_whole]; try rfl

/-- Before position n: at the start the class's invariant (the scratch at anything); afterwards the scratch at what
    the position before left, the first pallas_call's staging buffers at anything, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (scAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (scAt V c n hn)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (scAt V c (n - 1) (by omega))) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point: the inputs' buffers hold their blocks; the point's index modulo 4 says which of the three
    runs applies; the invariant hands the run the scratch (at what the point before left, or at anything at the very
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 64 := lt_of_lt_of_eq t.isLt (show cfg1.N = 64 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1)]
    rw [scAt_first V c t h0]
    by_cases hz : t.val = 0
    · rw [PhiS_castSucc V c t, PhiS_zero V c _ _ hz, PhiA1_eq]
      iintro ⟨⟨⟨Hr0, Hr1, Hr2, Hr3, Hr4, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run1_first c Set.univ (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [Hr0 Hr1 Hr2 Hr3 Hr4 HS Hg]
      · isplitr [Hg]
        ·
          isplitl [Hr0]; · iexact Hr0
          isplitl [Hr1]; · iexact Hr1
          isplitl [Hr2]; · iexact Hr2
          isplitl [Hr3]; · iexact Hr3
          isplitl [Hr4]; · iexact Hr4
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨⟨Hr0, Hr1, Hr2, Hr3, Hr4, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run1_first c Set.univ (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [Hr0 Hr1 Hr2 Hr3 Hr4 HS Hg]
      · isplitr [Hg]
        ·
          isplitl [Hr0]; · iexact Hr0
          isplitl [Hr1]; · iexact Hr1
          isplitl [Hr2]; · iexact Hr2
          isplitl [Hr3]; · iexact Hr3
          isplitl [Hr4]; · iexact Hr4
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hc0 : ¬cond1_0 (grid1.coords t) := fun h => h0 ((hcond1_0 t).mp h)
    have hz : t.val ≠ 0 := fun h => h0 (by rw [h])
    rw [scAt_next V c t h0]
    by_cases h1 : t.val % 4 = 3
    · have hc1 : cond1_1 (grid1.coords t) := (hcond1_1 t).mpr h1
      rw [show (dat1 V c).leavesExact 6 t = owns (c : Thread nD τ) (st1_6 t) fullShare ((dat1 V c).after 6 t) from by
        unfold Dat.leavesExact; rw [liveAt1_6 t hc1], after1_6]
      unfold outAt
      rw [PhiS_castSucc V c t, PhiS_pos V c _ _ hz]
      iintro ⟨⟨⟨Hr0, Hr1, Hr2, Hr3, Hr4, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run1_last c Set.univ (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [Hr0 Hr1 Hr2 Hr3 Hr4 HS Hg]
      · isplitr [Hg]
        ·
          isplitl [Hr0]; · iexact Hr0
          isplitl [Hr1]; · iexact Hr1
          isplitl [Hr2]; · iexact Hr2
          isplitl [Hr3]; · iexact Hr3
          isplitl [Hr4]; · iexact Hr4
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 6 t (idleAt1_6 t hc1) (noFlush1_6 t hc1)]
      rw [PhiS_castSucc V c t, PhiS_pos V c _ _ hz]
      iintro ⟨⟨⟨Hr0, Hr1, Hr2, Hr3, Hr4, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run1_mid c Set.univ (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [Hr0 Hr1 Hr2 Hr3 Hr4 HS Hg]
      · isplitr [Hg]
        ·
          isplitl [Hr0]; · iexact Hr0
          isplitl [Hr1]; · iexact Hr1
          isplitl [Hr2]; · iexact Hr2
          isplitl [Hr3]; · iexact Hr3
          isplitl [Hr4]; · iexact Hr4
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

/-! ## In and out of the invariant -/

theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the scratch's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ hne, PhiA1_eq]
  iintro ⟨⟨Hr0, Hr1, Hr2, Hr3, Hr4, HS⟩, Hg⟩
  isplitr [Hg]
  ·
    isplitl [Hr0]; · iexact Hr0
    isplitl [Hr1]; · iexact Hr1
    isplitl [Hr2]; · iexact Hr2
    isplitl [Hr3]; · iexact Hr3
    isplitl [Hr4]; · iexact Hr4
    iexists _; iexact HS
  iexact Hg

end Cert.Kernel.Frame

end
-- ==== Proof.FrameKernel.MainRun.lean ====
/-
  The whole program: eight host lines (a reshape of x, five changes of format, two reshapes of the biases), the two
  pallas_calls one after the other, and a last reshape. The buffers' contents are followed from the launch through
  each of the four items; every weakly fair execution ends with every unscoped buffer at the last of these
  valuations. Read at the arguments that is the frame; read at the result it is the value.
-/
import proofs.«112399_j85529978733276_1_alg».proof.Proof.FrameKernel.Region0
import proofs.«112399_j85529978733276_1_alg».proof.Proof.FrameKernel.Region1
import proofs.«112399_j85529978733276_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the host lines before the first pallas_call. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first pallas_call: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second pallas_call, entered from there. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last reshape. -/
abbrev W4 : Dev nD → Valuation τ sig (Elt F) := fun c => StableHlo.after hostOps2 (W3 m c)

/-! ## The arguments end as launched -/

/-- `main_arg0` is never written: no host line's result, no window's array of either region. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
/-- `main_arg1` is never written: no host line's result, no window's array of either region. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
/-- `main_arg2` is never written: no host line's result, no window's array of either region. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
/-- `main_arg3` is never written: no host line's result, no window's array of either region. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (r := main_arg3) (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
/-- `main_arg4` is never written: no host line's result, no window's array of either region. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (r := main_arg4) (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
/-- `main_arg5` is never written: no host line's result, no window's array of either region. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (r := main_arg5) (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
/-- `main_arg6` is never written: no host line's result, no window's array of either region. -/
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (r := main_arg6) (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with the printed one only when unification may unfold
-- plain definitions in a metavariable's type
set_option backward.isDefEq.respectTransparency.types false in
/-- The first pallas_call as a segment: entered from every unscoped buffer at W1, left at W2. Its arrays are split out of
    the unscoped buffers at entry and put back, at what the write-backs leave, at exit; the generator register goes into
    the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second pallas_call as a segment: entered from every unscoped buffer at W2, left at W3. Its arrays are split out of
    the unscoped buffers at entry and put back, at what the write-backs leave, at exit; the generator register goes into
    the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, with every
    unscoped buffer of each core at the last valuation. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.Kernel.Frame

end
-- ==== Proof.FrameKernelIdeal.Region0.lean ====
/-
  The first pallas_call: P = x2 · U1, one row tile of 1024 rows per grid point.
  Every point loads its tile of x2 and the whole of U1, multiplies them into a zero accumulator and
  stores the product, re-formatted, as its tile of P. Stated at a parameter V, the buffer contents the
  region is entered from: what each window's staging buffer holds after the body, the body's triple,
  the region's proof data and its body obligation.
-/
import proofs.«112399_j85529978733276_1_alg».proof.Proof.Gen.KernelIdeal.Launch
import proofs.«112399_j85529978733276_1_alg».proof.Proof.Gen.KernelIdeal.Skeleton
import proofs.«112399_j85529978733276_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of x2 is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- U1, fetched once, is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S1024x1024 := Rect.unit (s := S1024x1024) ![0, 0] S1024x1024.size inb_S1024x1024_S1024x1024_0_0
abbrev rP0 : Rect S1024x256 := Rect.unit (s := S1024x256) ![0, 0] S1024x256.size inb_S1024x256_S1024x256_0_0

/-- The tile of P a point stores, from its tile of x2 and U1. -/
def out0_2 (x0 : Vec F S1024x1024 .bf16) (x1 : Vec F S1024x256 .bf16) : Vec F S1024x256 .bf16 :=
  View.canon [⟨rP0, k0_pay1 (View.ld x0 rX0) (View.ld x1 rP0)⟩]

/-- The one store covers the buffer. -/
theorem cover0_2 (p0 : Vec F S1024x256 .bf16) (y : S1024x256.Idx) :
    ∃ pc ∈ ([⟨rP0, p0⟩] : List (View.Piece (Elt F) S1024x256 .bf16)), y ∈ pc.1.set :=
  View.cover_of_tiled [⟨rP0, p0⟩] S1024x256.size (by rfl) y

/-! ## The body's triple -/

set_option maxHeartbeats 1000000 in
/-- On whole staging buffers, the inputs' at x0 and x1 and the output's at anything, the body runs to the
    continuation with the inputs' as they were and the output's at out0_2 x0 x1. -/
theorem sound_kernel0 (c : Dev nD) (E : Set ℕ) (i : grid0.Coords)
    (arg1 : Memref sig .tc .vmem S1024x1024 .bf16) (harg1 : arg1.IsWhole) (arg2 : Memref sig .tc .vmem S1024x256 .bf16) (harg2 : arg2.IsWhole)
    (arg3 : Memref sig .tc .vmem S1024x256 .bf16) (harg3 : arg3.IsWhole)
    (x0 : Vec F S1024x1024 .bf16) (x1 : Vec F S1024x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body each input's buffer at its block and the output's at
    the stored tile; the invariant the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.FrameKernelIdeal.Region1Runs.lean ====
/-
  The second pallas_call's body, run once in each of the three ways its two conditionals go over the
  grid (M tile, F tile). The accumulator Q lives in a scratch buffer kept from one F tile to the next:
    first F tile   : Q is zeroed, then Q := Q + gelu(P·V1 + b1)·U2 on this tile;
    middle F tiles : Q := Q + gelu(P·V1 + b1)·U2;
    last F tile    : the same update, then the output tile Q·V2 + b2 is stored.
  Each run is stated on whole staging buffers and says what the scratch, and at the last F tile the
  output buffer, hold afterwards, as the body's own arithmetic of what it loaded.
-/
import proofs.«112399_j85529978733276_1_alg».proof.Proof.Gen.KernelIdeal.Launch
import proofs.«112399_j85529978733276_1_alg».proof.Proof.Gen.KernelIdeal.Skeleton
import proofs.«112399_j85529978733276_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions over the grid -/

/-- The first conditional: the F coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional: the F coordinate is the last, 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Whole-buffer accesses -/

theorem hz2 : (![0, 0] : Fin 2 → Nat) = fun _ => 0 := by
  funext a; fin_cases a <;> rfl

abbrev rQ : Rect S1024x256 := Rect.unit (s := S1024x256) ![0, 0] S1024x256.size inb_S1024x256_S1024x256_0_0
abbrev rO : Rect S1024x1024 := Rect.unit (s := S1024x1024) ![0, 0] S1024x1024.size inb_S1024x1024_S1024x1024_0_0

abbrev rV : Rect S256x1024 := Rect.unit (s := S256x1024) ![0, 0] S256x1024.size inb_S256x1024_S256x1024_0_0
abbrev rB : Rect S1x1024 := Rect.unit (s := S1x1024) ![0, 0] S1x1024.size inb_S1x1024_S1x1024_0_0

/-- Every index lies in the rectangle that is the whole shape. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A list of stores whose last one is of the whole buffer covers it. -/
theorem coverQ (p0 : Vec F S1024x256 .f32) (L : List (View.Piece (Elt F) S1024x256 .f32)) (y : S1024x256.Idx) :
    ∃ pc ∈ ((⟨rQ, p0⟩ : View.Piece (Elt F) S1024x256 .f32) :: L), y ∈ pc.1.set :=
  ⟨_, List.mem_cons_self, mem_unit_zero hz2 inb_S1024x256_S1024x256_0_0 y⟩
theorem coverO (p0 : Vec F S1024x1024 .f32) (y : S1024x1024.Idx) :
    ∃ pc ∈ ([⟨rO, p0⟩] : List (View.Piece (Elt F) S1024x1024 .f32)), y ∈ pc.1.set :=
  ⟨_, List.mem_cons_self, mem_unit_zero hz2 inb_S1024x1024_S1024x1024_0_0 y⟩

/-! ## What the stores leave, as the body's arithmetic of its loads -/

/-- The scratch after an update from contents xs: Q + gelu(P·V1 + b1)·U2 on this tile. -/
def scUpd (x0 : Vec F S1024x256 .bf16) (x1 : Vec F S256x1024 .bf16) (x2 : Vec F S1x1024 .f32) (x3 : Vec F S1024x256 .bf16)
    (xs : Vec F S1024x256 .f32) : Vec F S1024x256 .f32 :=
  View.canon [⟨rQ, k1_pay3 (View.ld x0 rQ) (View.ld x1 rV) (View.ld x2 rB) (View.ld x3 rQ) (View.ld xs rQ)⟩]
/-- The scratch after the first F tile: zeroed, then updated. -/
def scFirst (x0 : Vec F S1024x256 .bf16) (x1 : Vec F S256x1024 .bf16) (x2 : Vec F S1x1024 .f32) (x3 : Vec F S1024x256 .bf16) :
    Vec F S1024x256 .f32 :=
  View.canon [⟨rQ, k1_pay3 (View.ld x0 rQ) (View.ld x1 rV) (View.ld x2 rB) (View.ld x3 rQ) k1_pay2⟩, ⟨rQ, k1_pay2⟩]
/-- The output tile stored at the last F tile: Q·V2 + b2 of the updated scratch. -/
def outLast (x0 : Vec F S1024x256 .bf16) (x1 : Vec F S256x1024 .bf16) (x2 : Vec F S1x1024 .f32) (x3 : Vec F S1024x256 .bf16)
    (x4 : Vec F S256x1024 .bf16) (x5 : Vec F S1x1024 .f32) (xs : Vec F S1024x256 .f32) : Vec F S1024x1024 .f32 :=
  View.canon [⟨rO, k1_pay1 (View.ld x4 rV) (k1_pay3 (View.ld x0 rQ) (View.ld x1 rV) (View.ld x2 rB) (View.ld x3 rQ) (View.ld xs rQ)) (View.ld x5 rB)⟩]

theorem scUpd_eq (x0 : Vec F S1024x256 .bf16) (x1 : Vec F S256x1024 .bf16) (x2 : Vec F S1x1024 .f32) (x3 : Vec F S1024x256 .bf16)
    (xs : Vec F S1024x256 .f32) : scUpd x0 x1 x2 x3 xs = k1_pay3 x0 x1 x2 x3 xs := by
  unfold scUpd
  rw [View.canon_unit_zero (S := S1024x256) hz2, View.ld_unit_zero (S := S1024x256) hz2, View.ld_unit_zero (S := S256x1024) hz2,
    View.ld_unit_zero (S := S1x1024) hz2, View.ld_unit_zero (S := S1024x256) hz2, View.ld_unit_zero (S := S1024x256) hz2]
theorem scFirst_eq (x0 : Vec F S1024x256 .bf16) (x1 : Vec F S256x1024 .bf16) (x2 : Vec F S1x1024 .f32) (x3 : Vec F S1024x256 .bf16) :
    scFirst x0 x1 x2 x3 = k1_pay3 x0 x1 x2 x3 k1_pay2 := by
  unfold scFirst
  rw [View.canon_cons_unit_zero (S := S1024x256) hz2, View.ld_unit_zero (S := S1024x256) hz2, View.ld_unit_zero (S := S256x1024) hz2,
    View.ld_unit_zero (S := S1x1024) hz2, View.ld_unit_zero (S := S1024x256) hz2]
theorem outLast_eq (x0 : Vec F S1024x256 .bf16) (x1 : Vec F S256x1024 .bf16) (x2 : Vec F S1x1024 .f32) (x3 : Vec F S1024x256 .bf16)
    (x4 : Vec F S256x1024 .bf16) (x5 : Vec F S1x1024 .f32) (xs : Vec F S1024x256 .f32) :
    outLast x0 x1 x2 x3 x4 x5 xs = k1_pay1 x4 (k1_pay3 x0 x1 x2 x3 xs) x5 := by
  unfold outLast
  rw [View.canon_unit_zero (S := S1024x1024) hz2, View.ld_unit_zero (S := S256x1024) hz2, View.ld_unit_zero (S := S1024x256) hz2,
    View.ld_unit_zero (S := S256x1024) hz2, View.ld_unit_zero (S := S1x1024) hz2, View.ld_unit_zero (S := S1024x256) hz2,
    View.ld_unit_zero (S := S1024x256) hz2, View.ld_unit_zero (S := S1x1024) hz2]

/-! ## The three runs -/

set_option maxHeartbeats 400000 in
/-- First F tile: the scratch, at anything before, ends at the update of the zero accumulator; the output buffer
    is handed back untouched. -/
theorem run1_first (c : Dev nD) (E : Set ℕ) (i : grid1.Coords)
    (arg2 : Memref sig .tc .vmem S1024x256 .bf16) (harg2 : arg2.IsWhole) (arg3 : Memref sig .tc .vmem S256x1024 .bf16) (harg3 : arg3.IsWhole)
    (arg4 : Memref sig .tc .vmem S1x1024 .f32) (harg4 : arg4.IsWhole) (arg5 : Memref sig .tc .vmem S1024x256 .bf16) (harg5 : arg5.IsWhole)
    (arg6 : Memref sig .tc .vmem S256x1024 .bf16) (harg6 : arg6.IsWhole) (arg7 : Memref sig .tc .vmem S1x1024 .f32) (harg7 : arg7.IsWhole)
    (arg8 : Memref sig .tc .vmem S1024x1024 .f32) (harg8 : arg8.IsWhole) (arg9 : Memref sig .tc .vmem S1024x256 .f32) (harg9 : arg9.IsWhole)
    (hc0 : cond1_0 i) (hc1 : ¬cond1_1 i)
    (x0 : Vec F S1024x256 .bf16) (x1 : Vec F S256x1024 .bf16) (x2 : Vec F S1x1024 .f32) (x3 : Vec F S1024x256 .bf16)
    (x4 : Vec F S256x1024 .bf16) (x5 : Vec F S1x1024 .f32) (xi6 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (scFirst x0 x1 x2 x3)) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9) K := by
  simp only [cc1__flash_kernel_eq_skeleton]; unfold cc1__flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HS
  ipureintro
  sl_unfold_words
  rw [View.readCov_unit_zero (S := S1024x256) _ hz2]
  exact View.read_writes_eq_canon _ _ _ (coverQ _ _)

set_option maxHeartbeats 400000 in
/-- A middle F tile: the scratch goes from what the tile before left to its update; the output buffer is handed
    back untouched. -/
theorem run1_mid (c : Dev nD) (E : Set ℕ) (i : grid1.Coords)
    (arg2 : Memref sig .tc .vmem S1024x256 .bf16) (harg2 : arg2.IsWhole) (arg3 : Memref sig .tc .vmem S256x1024 .bf16) (harg3 : arg3.IsWhole)
    (arg4 : Memref sig .tc .vmem S1x1024 .f32) (harg4 : arg4.IsWhole) (arg5 : Memref sig .tc .vmem S1024x256 .bf16) (harg5 : arg5.IsWhole)
    (arg6 : Memref sig .tc .vmem S256x1024 .bf16) (harg6 : arg6.IsWhole) (arg7 : Memref sig .tc .vmem S1x1024 .f32) (harg7 : arg7.IsWhole)
    (arg8 : Memref sig .tc .vmem S1024x1024 .f32) (harg8 : arg8.IsWhole) (arg9 : Memref sig .tc .vmem S1024x256 .f32) (harg9 : arg9.IsWhole)
    (hc0 : ¬cond1_0 i) (hc1 : ¬cond1_1 i)
    (x0 : Vec F S1024x256 .bf16) (x1 : Vec F S256x1024 .bf16) (x2 : Vec F S1x1024 .f32) (x3 : Vec F S1024x256 .bf16)
    (x4 : Vec F S256x1024 .bf16) (x5 : Vec F S1x1024 .f32) (xi6 : Vec F S1024x1024 .f32) (xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (scUpd x0 x1 x2 x3 xs)) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9) K := by
  simp only [cc1__flash_kernel_eq_skeleton]; unfold cc1__flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HS
  ipureintro
  sl_unfold_words
  exact View.read_writes_eq_canon _ _ _ (coverQ _ _)

set_option maxHeartbeats 400000 in
/-- The last F tile: the scratch is updated as before, and the output buffer, at anything before, ends at
    Q·V2 + b2 of the updated scratch. -/
theorem run1_last (c : Dev nD) (E : Set ℕ) (i : grid1.Coords)
    (arg2 : Memref sig .tc .vmem S1024x256 .bf16) (harg2 : arg2.IsWhole) (arg3 : Memref sig .tc .vmem S256x1024 .bf16) (harg3 : arg3.IsWhole)
    (arg4 : Memref sig .tc .vmem S1x1024 .f32) (harg4 : arg4.IsWhole) (arg5 : Memref sig .tc .vmem S1024x256 .bf16) (harg5 : arg5.IsWhole)
    (arg6 : Memref sig .tc .vmem S256x1024 .bf16) (harg6 : arg6.IsWhole) (arg7 : Memref sig .tc .vmem S1x1024 .f32) (harg7 : arg7.IsWhole)
    (arg8 : Memref sig .tc .vmem S1024x1024 .f32) (harg8 : arg8.IsWhole) (arg9 : Memref sig .tc .vmem S1024x256 .f32) (harg9 : arg9.IsWhole)
    (hc0 : ¬cond1_0 i) (hc1 : cond1_1 i)
    (x0 : Vec F S1024x256 .bf16) (x1 : Vec F S256x1024 .bf16) (x2 : Vec F S1x1024 .f32) (x3 : Vec F S1024x256 .bf16)
    (x4 : Vec F S256x1024 .bf16) (x5 : Vec F S1x1024 .f32) (xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (outLast x0 x1 x2 x3 x4 x5 xs) ∗ owns (c : Thread nD τ) arg9 fullShare (scUpd x0 x1 x2 x3 xs)) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9) K := by
  simp only [cc1__flash_kernel_eq_skeleton]; unfold cc1__flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.readCov_unit_zero (S := S1024x256) _ hz2]
    exact View.read_writes_eq_canon _ _ _ (coverO _)
  iexists _; isplitr
  swap; · iexact HS
  ipureintro
  sl_unfold_words
  exact View.read_writes_eq_canon _ _ _ (coverQ _ _)

end Cert.KernelIdeal.Frame

end
-- ==== Proof.FrameKernelIdeal.Region1.lean ====
/-
  The second pallas_call on the grid (16 M tiles) × (4 F tiles), M-major. The accumulator Q of an M tile lives in a
  scratch buffer that is zeroed at the tile's first F point and added to at each of its four F points; the output
  tile is stored, and written back, only at the fourth. Here: what the scratch holds after each grid point, by
  recursion on the point; the region's invariant, which carries the scratch at those contents from one point to the
  next; the proof data; and the body obligation, the point's case read off its index modulo 4.
-/
import proofs.«112399_j85529978733276_1_alg».proof.Proof.FrameKernelIdeal.Region1Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or carried over. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last F tile the output window is idle, -/
theorem idleAt1_6 : ∀ t : Fin cfg1.N, ¬cond1_1 (grid1.coords t) → cfg1.idle 6 (grid1.coords t) = true := by decide +kernel
/-- and is not written back; -/
theorem noFlush1_6 : ∀ t : Fin cfg1.N, ¬cond1_1 (grid1.coords t) → (cfg1.win 6).flush t = false := by decide +kernel
/-- at the last F tile it is live. -/
theorem liveAt1_6 : ∀ t : Fin cfg1.N, cond1_1 (grid1.coords t) → cfg1.idle 6 (grid1.coords t) = false := by decide +kernel

/-! ## The scratch after each point -/

/-- The accumulator after the body at position n: restarted from zero at the first F tile of an M tile, otherwise
    updated from what the position before left. -/
def scAt (c : Dev nD) : (n : ℕ) → n < cfg1.N → Vec F S1024x256 .f32
  | 0, hn => scFirst (iblk1 V c 0 ⟨0, hn⟩) (iblk1 V c 1 ⟨0, hn⟩) (iblk1 V c 2 ⟨0, hn⟩) (iblk1 V c 3 ⟨0, hn⟩)
  | n + 1, hn =>
    if (n + 1) % 4 = 0 then scFirst (iblk1 V c 0 ⟨n + 1, hn⟩) (iblk1 V c 1 ⟨n + 1, hn⟩) (iblk1 V c 2 ⟨n + 1, hn⟩) (iblk1 V c 3 ⟨n + 1, hn⟩)
    else scUpd (iblk1 V c 0 ⟨n + 1, hn⟩) (iblk1 V c 1 ⟨n + 1, hn⟩) (iblk1 V c 2 ⟨n + 1, hn⟩) (iblk1 V c 3 ⟨n + 1, hn⟩) (scAt c n (Nat.lt_of_succ_lt hn))

theorem scAt_first (c : Dev nD) (t : Fin cfg1.N) (h0 : t.val % 4 = 0) :
    scAt V c t.val t.isLt = scFirst (iblk1 V c 0 t) (iblk1 V c 1 t) (iblk1 V c 2 t) (iblk1 V c 3 t) := by
  obtain ⟨n, hn⟩ := t
  cases n with
  | zero => rfl
  | succ n => exact (if_pos h0)

theorem scAt_next (c : Dev nD) (t : Fin cfg1.N) (h0 : ¬t.val % 4 = 0) :
    scAt V c t.val t.isLt = scUpd (iblk1 V c 0 t) (iblk1 V c 1 t) (iblk1 V c 2 t) (iblk1 V c 3 t) (scAt V c (t.val - 1) (Nat.lt_of_le_of_lt (Nat.sub_le _ _) t.isLt)) := by
  obtain ⟨n, hn⟩ := t
  cases n with
  | zero => exact absurd (Nat.zero_mod _) h0
  | succ n => exact (if_neg h0)

/-- The output tile stored at a last F tile, from the scratch the position before left. -/
def outAt (c : Dev nD) (t : Fin cfg1.N) : Vec F S1024x1024 .f32 :=
  outLast (iblk1 V c 0 t) (iblk1 V c 1 t) (iblk1 V c 2 t) (iblk1 V c 3 t) (iblk1 V c 4 t) (iblk1 V c 5 t) (scAt V c (t.val - 1) (Nat.lt_of_le_of_lt (Nat.sub_le _ _) t.isLt))

/-! ## The invariant -/

/-- The scratch operand: a whole scoped buffer of the kernel's own. -/
abbrev scM : Memref sig .tc .vmem S1024x256 .f32 := Memref.whole cc1_scratch0

/-- The class's invariant with the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM fullShare d)) ∗ (∃ r, prngReg c r)) := by
  unfold Pipeline.ΦA; rw [scopedRest1_eq]; simp only [scM, owns_whole]; try rfl

/-- Before position n: at the start the class's invariant (the scratch at anything); afterwards the scratch at what
    the position before left, the first pallas_call's staging buffers at anything, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (scAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (scAt V c n hn)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (scAt V c (n - 1) (by omega))) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point: the inputs' buffers hold their blocks; the point's index modulo 4 says which of the three
    runs applies; the invariant hands the run the scratch (at what the point before left, or at anything at the very
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 64 := lt_of_lt_of_eq t.isLt (show cfg1.N = 64 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1)]
    rw [scAt_first V c t h0]
    by_cases hz : t.val = 0
    · rw [PhiS_castSucc V c t, PhiS_zero V c _ _ hz, PhiA1_eq]
      iintro ⟨⟨⟨Hr0, Hr1, Hr2, Hr3, Hr4, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run1_first c Set.univ (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [Hr0 Hr1 Hr2 Hr3 Hr4 HS Hg]
      · isplitr [Hg]
        ·
          isplitl [Hr0]; · iexact Hr0
          isplitl [Hr1]; · iexact Hr1
          isplitl [Hr2]; · iexact Hr2
          isplitl [Hr3]; · iexact Hr3
          isplitl [Hr4]; · iexact Hr4
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨⟨Hr0, Hr1, Hr2, Hr3, Hr4, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run1_first c Set.univ (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [Hr0 Hr1 Hr2 Hr3 Hr4 HS Hg]
      · isplitr [Hg]
        ·
          isplitl [Hr0]; · iexact Hr0
          isplitl [Hr1]; · iexact Hr1
          isplitl [Hr2]; · iexact Hr2
          isplitl [Hr3]; · iexact Hr3
          isplitl [Hr4]; · iexact Hr4
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hc0 : ¬cond1_0 (grid1.coords t) := fun h => h0 ((hcond1_0 t).mp h)
    have hz : t.val ≠ 0 := fun h => h0 (by rw [h])
    rw [scAt_next V c t h0]
    by_cases h1 : t.val % 4 = 3
    · have hc1 : cond1_1 (grid1.coords t) := (hcond1_1 t).mpr h1
      rw [show (dat1 V c).leavesExact 6 t = owns (c : Thread nD τ) (st1_6 t) fullShare ((dat1 V c).after 6 t) from by
        unfold Dat.leavesExact; rw [liveAt1_6 t hc1], after1_6]
      unfold outAt
      rw [PhiS_castSucc V c t, PhiS_pos V c _ _ hz]
      iintro ⟨⟨⟨Hr0, Hr1, Hr2, Hr3, Hr4, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run1_last c Set.univ (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [Hr0 Hr1 Hr2 Hr3 Hr4 HS Hg]
      · isplitr [Hg]
        ·
          isplitl [Hr0]; · iexact Hr0
          isplitl [Hr1]; · iexact Hr1
          isplitl [Hr2]; · iexact Hr2
          isplitl [Hr3]; · iexact Hr3
          isplitl [Hr4]; · iexact Hr4
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 6 t (idleAt1_6 t hc1) (noFlush1_6 t hc1)]
      rw [PhiS_castSucc V c t, PhiS_pos V c _ _ hz]
      iintro ⟨⟨⟨Hr0, Hr1, Hr2, Hr3, Hr4, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run1_mid c Set.univ (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [Hr0 Hr1 Hr2 Hr3 Hr4 HS Hg]
      · isplitr [Hg]
        ·
          isplitl [Hr0]; · iexact Hr0
          isplitl [Hr1]; · iexact Hr1
          isplitl [Hr2]; · iexact Hr2
          isplitl [Hr3]; · iexact Hr3
          isplitl [Hr4]; · iexact Hr4
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

/-! ## In and out of the invariant -/

theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the scratch's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ hne, PhiA1_eq]
  iintro ⟨⟨Hr0, Hr1, Hr2, Hr3, Hr4, HS⟩, Hg⟩
  isplitr [Hg]
  ·
    isplitl [Hr0]; · iexact Hr0
    isplitl [Hr1]; · iexact Hr1
    isplitl [Hr2]; · iexact Hr2
    isplitl [Hr3]; · iexact Hr3
    isplitl [Hr4]; · iexact Hr4
    iexists _; iexact HS
  iexact Hg

end Cert.KernelIdeal.Frame

end
-- ==== Proof.FrameKernelIdeal.MainRun.lean ====
/-
  The whole program: eight host lines (a reshape of x, five changes of format, two reshapes of the biases), the two
  pallas_calls one after the other, and a last reshape. The buffers' contents are followed from the launch through
  each of the four items; every weakly fair execution ends with every unscoped buffer at the last of these
  valuations. Read at the arguments that is the frame; read at the result it is the value.
-/
import proofs.«112399_j85529978733276_1_alg».proof.Proof.FrameKernelIdeal.Region0
import proofs.«112399_j85529978733276_1_alg».proof.Proof.FrameKernelIdeal.Region1
import proofs.«112399_j85529978733276_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the host lines before the first pallas_call. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first pallas_call: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second pallas_call, entered from there. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last reshape. -/
abbrev W4 : Dev nD → Valuation τ sig (Elt F) := fun c => StableHlo.after hostOps2 (W3 m c)

/-! ## The arguments end as launched -/

/-- `main_arg0` is never written: no host line's result, no window's array of either region. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
/-- `main_arg1` is never written: no host line's result, no window's array of either region. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
/-- `main_arg2` is never written: no host line's result, no window's array of either region. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
/-- `main_arg3` is never written: no host line's result, no window's array of either region. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (r := main_arg3) (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
/-- `main_arg4` is never written: no host line's result, no window's array of either region. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (r := main_arg4) (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
/-- `main_arg5` is never written: no host line's result, no window's array of either region. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (r := main_arg5) (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
/-- `main_arg6` is never written: no host line's result, no window's array of either region. -/
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (r := main_arg6) (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with the printed one only when unification may unfold
-- plain definitions in a metavariable's type
set_option backward.isDefEq.respectTransparency.types false in
/-- The first pallas_call as a segment: entered from every unscoped buffer at W1, left at W2. Its arrays are split out of
    the unscoped buffers at entry and put back, at what the write-backs leave, at exit; the generator register goes into
    the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second pallas_call as a segment: entered from every unscoped buffer at W2, left at W3. Its arrays are split out of
    the unscoped buffers at entry and put back, at what the write-backs leave, at exit; the generator register goes into
    the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, with every
    unscoped buffer of each core at the last valuation. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.KernelIdeal.Frame

end
-- ==== Proof.Spec.lean ====
/-
  What both programs compute, one row at a time. A row x ∈ ℝ^1024 of the input goes through a low-rank
  feed-forward layer of rank 256 and width 4096:
      p = x·U1,   h = gelu(p·V1 + b1),   q = h·U2,   out = q·V2 + b2,
  with gelu in its tanh form, s ↦ s·(½·(1 + tanh(c₀·(s + c₁·s³)))), the four constants the float
  words both programs print. Everything is read on the extended reals.
  Also here: the two regroupings by which the tiled program's arithmetic is this one — the cube with its
  factors in the other order, and a sum over 4096 terms taken as four consecutive runs of 1024 added
  to zero one after the other.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

/-! ## gelu in its tanh form -/

/-- The coefficient of the cube, the float nearest 0.044715. -/
def cCube : EReal := Ideal.ofBits .f32 0x3D372713#32
/-- The scale inside tanh, the float nearest √(2/π). -/
def cScale : EReal := Ideal.ofBits .f32 0x3F4C422A#32
/-- The float 1. -/
def cOne : EReal := Ideal.ofBits .f32 0x3F800000#32
/-- The float ½. -/
def cHalf : EReal := Ideal.ofBits .f32 0x3F000000#32

/-- gelu(s) = s·(½·(1 + tanh(c₀·(s + c₁·((s·s)·s))))). -/
def gelu (s : EReal) : EReal :=
  s * (cHalf * (cOne + Ideal.tanh (cScale * (s + cCube * ((s * s) * s)))))

/-- The same with the cube spelt s·(s·s): multiplication on the extended reals commutes. -/
theorem gelu_cube_comm (s : EReal) :
    s * (cHalf * (cOne + Ideal.tanh (cScale * (s + cCube * (s * (s * s)))))) = gelu s := by
  unfold gelu; rw [mul_comm s (s * s)]

/-! ## One row through the layer -/

section Row

variable (U1 : Fin 1024 → Fin 256 → EReal) (V1 : Fin 256 → Fin 4096 → EReal) (b1 : Fin 4096 → EReal)
  (U2 : Fin 4096 → Fin 256 → EReal) (V2 : Fin 256 → Fin 1024 → EReal) (b2 : Fin 1024 → EReal)

/-- The rank-256 projection of a row: p r = Σ_k x k · U1 k r. -/
def proj (x : Fin 1024 → EReal) (r : Fin 256) : EReal := ∑ k : Fin 1024, x k * U1 k r

/-- The hidden activation from a projected row: h f = gelu(Σ_r p r · V1 r f + b1 f). -/
def hidden (p : Fin 256 → EReal) (f : Fin 4096) : EReal := gelu ((∑ r : Fin 256, p r * V1 r f) + b1 f)

/-- Back to rank 256: q r = Σ_f h f · U2 f r. -/
def back (h : Fin 4096 → EReal) (r : Fin 256) : EReal := ∑ f : Fin 4096, h f * U2 f r

/-- The output row: out d = Σ_r q r · V2 r d + b2 d. -/
def outRow (q : Fin 256 → EReal) (d : Fin 1024) : EReal := (∑ r : Fin 256, q r * V2 r d) + b2 d

/-- A row through the whole layer. -/
def layer (x : Fin 1024 → EReal) (d : Fin 1024) : EReal :=
  outRow V2 b2 (back U2 (hidden V1 b1 (proj U1 x))) d

end Row

/-! ## The arrays -/

/-- The result array, [4, 4096, 1024], from the seven argument arrays: entry (b, s, d) is row (b, s) of x through
    the layer, at d. -/
def G (x : (⟨3, ![4, 4096, 1024]⟩ : Shape).Idx → EReal) (U1 : (⟨2, ![1024, 256]⟩ : Shape).Idx → EReal)
    (V1 : (⟨2, ![256, 4096]⟩ : Shape).Idx → EReal) (b1 : (⟨1, ![4096]⟩ : Shape).Idx → EReal)
    (U2 : (⟨2, ![4096, 256]⟩ : Shape).Idx → EReal) (V2 : (⟨2, ![256, 1024]⟩ : Shape).Idx → EReal)
    (b2 : (⟨1, ![1024]⟩ : Shape).Idx → EReal) : (⟨3, ![4, 4096, 1024]⟩ : Shape).Idx → EReal :=
  fun i => layer (fun k r => U1 (ix2 k r)) (fun r f => V1 (ix2 r f)) (fun f => b1 (ix1 f))
    (fun f r => U2 (ix2 f r)) (fun r d => V2 (ix2 r d)) (fun d => b2 (ix1 d))
    (fun k => x (ix3 (i 0) (i 1) k)) (i 2)

/-! ## A sum of 4096 terms as four runs of 1024 -/

/-- The f-th term of the j-th run of 1024. -/
def tileIdx (j : Fin 4) (l : Fin 1024) : Fin 4096 := ⟨1024 * j.val + l.val, by have := j.isLt; have := l.isLt; omega⟩

/-- Σ over Fin 4096 is zero plus the four runs, added one after the other from the left. -/
theorem sum_four_tiles (g : Fin 4096 → EReal) :
    ∑ f : Fin 4096, g f
      = (((0 + ∑ l : Fin 1024, g (tileIdx 0 l)) + ∑ l : Fin 1024, g (tileIdx 1 l))
          + ∑ l : Fin 1024, g (tileIdx 2 l)) + ∑ l : Fin 1024, g (tileIdx 3 l) := by
  have e : ∑ f : Fin 4096, g f = ∑ p : Fin 4 × Fin 1024, g (finProdFinEquiv p) :=
    (Equiv.sum_comp (finProdFinEquiv (m := 4) (n := 1024)) g).symm
  rw [e, Fintype.sum_prod_type, Fin.sum_univ_four, zero_add]
  have h : ∀ (j : Fin 4) (l : Fin 1024), (finProdFinEquiv (j, l) : Fin (4 * 1024)) = tileIdx j l := by
    intro j l; apply Fin.ext; simp [finProdFinEquiv, tileIdx]; omega
  simp only [h]

end Cert.Spec

end
-- ==== Proof.Payloads.lean ====
/-
  The kernels' arithmetic read at one entry, on the extended reals: each stored value of the two kernel bodies, as a
  function of the blocks the body loaded, at row p and column r of the stored tile.
-/
import proofs.«112399_j85529978733276_1_alg».proof.Proof.Gen.KernelIdeal.Skeleton
import proofs.«112399_j85529978733276_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open scoped BigOperators

/-- The left operand's index of the [1024,1024] by [1024,256] product, on its row axis: the output's row. -/
theorem lhsA_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
/-- … on its column axis: the contraction position. -/
theorem lhsA_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
/-- The right operand's index, on its row axis: the contraction position. -/
theorem rhsA_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
/-- … on its column axis: the output's column. -/
theorem rhsA_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- A 1024×1024 by 1024×256 block product into zero, at entry (p, r): Σ_k lhs[p,k]·rhs[k,r]. -/
theorem mmA (lhs : FVec Ideal S1024x1024 .bf16) (rhs : FVec Ideal S1024x256 .bf16) (p : Fin 1024) (r : Fin 256) :
    matmul dot_S1024x1024_S1024x256_S1024x256_1_0_0_1_n_n none lhs rhs (constant (F := Ideal) S1024x256 .f32 0x00000000#32) (ix2 p r)
      = ∑ k : Fin 1024, lhs (ix2 p k) * rhs (ix2 k r) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p r) ((contrEquiv1 dot_S1024x1024_S1024x256_S1024x256_1_0_0_1_n_n 1024 rfl rfl).symm k) = ix2 p k := funext fun a => Fin.ext (by
    match a with
    | ⟨0, _⟩ => exact lhsA_0 _ _
    | ⟨1, _⟩ => exact (lhsA_1 _ _).trans hk)
  have er : dot_S1024x1024_S1024x256_S1024x256_1_0_0_1_n_n.rhsIdx (ix2 p r) ((contrEquiv1 dot_S1024x1024_S1024x256_S1024x256_1_0_0_1_n_n 1024 rfl rfl).symm k) = ix2 k r := funext fun a => Fin.ext (by
    match a with
    | ⟨0, _⟩ => exact (rhsA_0 _ _).trans hk
    | ⟨1, _⟩ => exact rhsA_1 _ _)
  rw [el, er]

/-- The left operand's index of the [1024,256] by [256,1024] product, on its row axis: the output's row. -/
theorem lhsB_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
/-- … on its column axis: the contraction position. -/
theorem lhsB_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
/-- The right operand's index, on its row axis: the contraction position. -/
theorem rhsB_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
/-- … on its column axis: the output's column. -/
theorem rhsB_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- A 1024×256 by 256×1024 block product into zero, at entry (p, r): Σ_k lhs[p,k]·rhs[k,r]. -/
theorem mmB (lhs : FVec Ideal S1024x256 .bf16) (rhs : FVec Ideal S256x1024 .bf16) (p : Fin 1024) (r : Fin 1024) :
    matmul dot_S1024x256_S256x1024_S1024x1024_1_0_0_1_n_n none lhs rhs (constant (F := Ideal) S1024x1024 .f32 0x00000000#32) (ix2 p r)
      = ∑ k : Fin 256, lhs (ix2 p k) * rhs (ix2 k r) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p r) ((contrEquiv1 dot_S1024x256_S256x1024_S1024x1024_1_0_0_1_n_n 256 rfl rfl).symm k) = ix2 p k := funext fun a => Fin.ext (by
    match a with
    | ⟨0, _⟩ => exact lhsB_0 _ _
    | ⟨1, _⟩ => exact (lhsB_1 _ _).trans hk)
  have er : dot_S1024x256_S256x1024_S1024x1024_1_0_0_1_n_n.rhsIdx (ix2 p r) ((contrEquiv1 dot_S1024x256_S256x1024_S1024x1024_1_0_0_1_n_n 256 rfl rfl).symm k) = ix2 k r := funext fun a => Fin.ext (by
    match a with
    | ⟨0, _⟩ => exact (rhsB_0 _ _).trans hk
    | ⟨1, _⟩ => exact rhsB_1 _ _)
  rw [el, er]

/-- A [1,1024] row spread over 1024 rows, at entry (p, d): the row's entry d. -/
theorem bcast_row (b : FVec Ideal S1x1024 .f32) (p d : Fin 1024) :
    broadcastTo S1024x1024 b broadcasts_S1x1024_S1024x1024 (ix2 p d) = b (ix2 0 d) :=
  broadcastTo_apply b broadcasts_S1x1024_S1024x1024 (ix2 p d) (ix2 0 d) (fun a => match a with
    | ⟨0, _⟩ => by show (0 : Nat) = if (1 : Nat) = 1 then 0 else _; rw [if_pos rfl]
    | ⟨1, _⟩ => by show d.val = if (1024 : Nat) = 1 then 0 else _; rw [if_neg (by decide)]; rfl)

/-- The pre-activation tile, at entry (p, l): Σ_r' P[p,r']·V1[r',l] + b1[l]. -/
theorem pre_apply (x0 : FVec Ideal S1024x256 .bf16) (x1 : FVec Ideal S256x1024 .bf16) (x2 : FVec Ideal S1x1024 .f32)
    (p l : Fin 1024) :
    addf (matmul dot_S1024x256_S256x1024_S1024x1024_1_0_0_1_n_n none x0 x1 (constant (F := Ideal) S1024x1024 .f32 0x00000000#32))
        (broadcastTo S1024x1024 x2 broadcasts_S1x1024_S1024x1024) (ix2 p l)
      = (∑ r' : Fin 256, x0 (ix2 p r') * x1 (ix2 r' l)) + x2 (ix2 0 l) := by
  show matmul dot_S1024x256_S256x1024_S1024x1024_1_0_0_1_n_n none x0 x1 (constant (F := Ideal) S1024x1024 .f32 0x00000000#32) (ix2 p l)
      + broadcastTo S1024x1024 x2 broadcasts_S1x1024_S1024x1024 (ix2 p l) = _
  rw [mmB, bcast_row]

/-- The activation of a tile s, entry by entry: s·(½·(1 + tanh(c₀·(s + c₁·(s·(s·s)))))) is gelu of the entry. -/
theorem act_apply (s : FVec Ideal S1024x1024 .f32) (i : S1024x1024.Idx) :
    (truncf .bf16
      (mulf s (mulf (broadcast S1024x1024 (Scalar.ofBits (F := Ideal) .f32 0x3F000000#32))
        (addf (broadcast S1024x1024 (Scalar.ofBits (F := Ideal) .f32 0x3F800000#32))
          (tanh (mulf (broadcast S1024x1024 (Scalar.ofBits (F := Ideal) .f32 0x3F4C422A#32))
            (addf s (mulf (broadcast S1024x1024 (Scalar.ofBits (F := Ideal) .f32 0x3D372713#32)) (mulf s (mulf s s)))))))))
      bitsLt_bf16_f32 : FVec Ideal S1024x1024 .bf16) i = Cert.Spec.gelu (s i) :=
  Cert.Spec.gelu_cube_comm (s i)

/-- The projection kernel's stored tile: entry (p, r) is Σ_k x[p,k]·u[k,r]. -/
theorem pay0_apply (x0 : Vec Ideal S1024x1024 .bf16) (x1 : Vec Ideal S1024x256 .bf16) (p : Fin 1024) (r : Fin 256) :
    k0_pay1 (F := Ideal) x0 x1 (ix2 p r) = ∑ k : Fin 1024, x0 (ix2 p k) * x1 (ix2 k r) := by
  have e0 : shapeCast S1024x1024 x0 shapeCasts_S1024x1024_S1024x1024 = x0 := shapeCast_self _ _
  have e1 : shapeCast S1024x256 x1 shapeCasts_S1024x256_S1024x256 = x1 := shapeCast_self _ _
  unfold k0_pay1
  show matmul dot_S1024x1024_S1024x256_S1024x256_1_0_0_1_n_n none (shapeCast S1024x1024 x0 shapeCasts_S1024x1024_S1024x1024)
      (shapeCast S1024x256 x1 shapeCasts_S1024x256_S1024x256) (constant (F := Ideal) S1024x256 .f32 0x00000000#32) (ix2 p r) = _
  rw [e0, e1]
  exact mmA x0 x1 p r

/-- The zero fill of the accumulator. -/
theorem pay2_apply (j : S1024x256.Idx) : k1_pay2 (F := Ideal) j = 0 := by
  unfold k1_pay2
  show shapeCast S1024x256 (broadcast S1024x256 (Scalar.ofBits (F := Ideal) .f32 0x00000000#32)) shapeCasts_S1024x256_S1024x256 j = 0
  rw [shapeCast_self]
  exact Ideal.ofBits_zero_f32

/-- The accumulator's update on one F tile: entry (p, r) gains Σ_l gelu(Σ_r' P[p,r']·V1[r',l] + b1[l])·U2[l,r], the
    sums over the tile's 1024 columns l and the rank r'. -/
theorem pay3_apply (x0 : Vec Ideal S1024x256 .bf16) (x1 : Vec Ideal S256x1024 .bf16) (x2 : Vec Ideal S1x1024 .f32)
    (x3 : Vec Ideal S1024x256 .bf16) (xs : Vec Ideal S1024x256 .f32) (p : Fin 1024) (r : Fin 256) :
    k1_pay3 (F := Ideal) x0 x1 x2 x3 xs (ix2 p r)
      = xs (ix2 p r) + ∑ l : Fin 1024, Cert.Spec.gelu ((∑ r' : Fin 256, x0 (ix2 p r') * x1 (ix2 r' l)) + x2 (ix2 0 l)) * x3 (ix2 l r) := by
  have e0 : shapeCast S1024x256 x0 shapeCasts_S1024x256_S1024x256 = x0 := shapeCast_self _ _
  have e1 : shapeCast S256x1024 x1 shapeCasts_S256x1024_S256x1024 = x1 := shapeCast_self _ _
  have e2 : shapeCast S1x1024 x2 shapeCasts_S1x1024_S1x1024 = x2 := shapeCast_self _ _
  have e3 : shapeCast S1024x256 x3 shapeCasts_S1024x256_S1024x256 = x3 := shapeCast_self _ _
  unfold k1_pay3
  refine (congrFun (shapeCast_self _ _) (ix2 p r)).trans ?_
  refine congrArg (xs (ix2 p r) + ·) ?_
  refine (mmA _ _ p r).trans ?_
  refine Finset.sum_congr rfl fun l _ => ?_
  rw [e3]
  refine congrArg (· * x3 (ix2 l r)) ?_
  refine (act_apply _ (ix2 p l)).trans ?_
  refine congrArg Cert.Spec.gelu ?_
  rw [e0, e1, e2]
  exact pre_apply x0 x1 x2 p l

/-- The output tile: entry (p, d) is Σ_r Q[p,r]·V2[r,d] + b2[d]. -/
theorem pay1_apply (x4 : Vec Ideal S256x1024 .bf16) (q : Vec Ideal S1024x256 .f32) (x5 : Vec Ideal S1x1024 .f32)
    (p : Fin 1024) (d : Fin 1024) :
    k1_pay1 (F := Ideal) x4 q x5 (ix2 p d) = (∑ r : Fin 256, q (ix2 p r) * x4 (ix2 r d)) + x5 (ix2 0 d) := by
  have e4 : shapeCast S256x1024 x4 shapeCasts_S256x1024_S256x1024 = x4 := shapeCast_self _ _
  have e5 : shapeCast S1x1024 x5 shapeCasts_S1x1024_S1x1024 = x5 := shapeCast_self _ _
  unfold k1_pay1
  show matmul dot_S1024x256_S256x1024_S1024x1024_1_0_0_1_n_n none (truncf .bf16 q bitsLt_bf16_f32) (shapeCast S256x1024 x4 shapeCasts_S256x1024_S256x1024)
        (constant (F := Ideal) S1024x1024 .f32 0x00000000#32) (ix2 p d)
      + broadcastTo S1024x1024 (shapeCast S1x1024 x5 shapeCasts_S1x1024_S1x1024) broadcasts_S1x1024_S1024x1024 (ix2 p d) = _
  rw [e4, e5, bcast_row]
  exact congrArg (· + x5 (ix2 0 d)) (mmB (truncf .bf16 q bitsLt_bf16_f32) x4 p d)

end Cert.KernelIdeal.Val

end
-- ==== Proof.ValueKernel0.lean ====
/-
  The array the first pallas_call leaves: P = x2·U1, all 16384 rows, assembled from the sixteen row tiles its grid
  points write back.
-/
import proofs.«112399_j85529978733276_1_alg».proof.Proof.FrameKernelIdeal.Region0
import proofs.«112399_j85529978733276_1_alg».proof.Proof.Payloads
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.SL.Sem
open scoped BigOperators

/-- Row i, column r of x2·U1. -/
def projArr (x2 : Vec Ideal S16384x1024 .bf16) (u : Vec Ideal S1024x256 .bf16) : Vec Ideal S16384x256 .bf16 :=
  fun j => Cert.Spec.proj (fun k r => u (ix2 k r)) (fun k => x2 (ix2 (j 0) k)) (j 1)

/-! ## Where the tiles sit -/

/-- The zero offsets of a buffer read or written whole. -/
theorem zeroOffsets : (![0, 0] : Fin 2 → Nat) = fun _ => 0 := funext fun a => by fin_cases a <;> rfl

/-- At grid point t the tile of x2 and the tile of P are both row tile t (columns from 0); U1 is taken whole. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's tile of x2 is row 1024·t + p of x2. -/
theorem xtile_apply (V : (c : Dev nD) → (b : Ref sig .tc) → Buf (Elt Ideal) ((c : Thread nD τ).loc b)) (c : Dev nD)
    (t : Fin cfg0.N) (y : S1024x1024.Idx) (k : S16384x1024.Idx)
    (hk0 : (k 0).val = 1024 * t.val + (y 0).val) (hk1 : (k 1).val = (y 1).val) :
    (iblk0 V c 0 t : Vec Ideal S1024x1024 .bf16) y = (V c main_v1 : S16384x1024.Idx → Elt Ideal .bf16) k := by
  obtain ⟨e0, e1, -⟩ := tile_index t
  unfold iblk0
  rw [View.read_apply]
  show V c main_v1 _ = V c main_v1 _
  congr 1
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 1024 + 1 * (y 1).val = (k 1).val; rw [e1, hk1]; omega

/-- Every point's block of U1 is U1. -/
theorem utile_apply (V : (c : Dev nD) → (b : Ref sig .tc) → Buf (Elt Ideal) ((c : Thread nD τ).loc b)) (c : Dev nD)
    (t : Fin cfg0.N) (y : S1024x256.Idx) :
    (iblk0 V c 1 t : Vec Ideal S1024x256 .bf16) y = (V c main_v2 : S1024x256.Idx → Elt Ideal .bf16) y := by
  obtain ⟨-, -, e2, e3, -⟩ := tile_index t
  unfold iblk0
  rw [View.read_apply]
  show V c main_v2 _ = V c main_v2 _
  congr 1
  funext a
  apply Fin.ext
  match a with
  | ⟨0, _⟩ => show win0_1.index t (0 : Fin 2) * 1024 + 1 * (y 0).val = (y 0).val; rw [e2]; omega
  | ⟨1, _⟩ => show win0_1.index t (1 : Fin 2) * 256 + 1 * (y 1).val = (y 1).val; rw [e3]; omega

/-! ## One tile of the product -/

/-- A tile of x2 that is rows 1024·n … 1024·n + 1023 of x2, multiplied by U1, is the same rows of x2·U1. -/
theorem tile_eq (x2 : Vec Ideal S16384x1024 .bf16) (u : Vec Ideal S1024x256 .bf16) (n : Nat) (hn : n < 16)
    (xt : Vec Ideal S1024x1024 .bf16) (ut : Vec Ideal S1024x256 .bf16)
    (hx : ∀ (p k : Fin 1024), xt (ix2 p k) = x2 (ix2 (⟨1024 * n + p.val, by have := p.isLt; omega⟩ : Fin 16384) k))
    (hu : ∀ (k : Fin 1024) (r : Fin 256), ut (ix2 k r) = u (ix2 k r))
    (p : Fin 1024) (r : Fin 256) :
    k0_pay1 (F := Ideal) xt ut (ix2 p r)
      = projArr x2 u (ix2 (⟨1024 * n + p.val, by have := p.isLt; omega⟩ : Fin 16384) r) := by
  rw [pay0_apply]
  show ∑ k : Fin 1024, xt (ix2 p k) * ut (ix2 k r)
    = ∑ k : Fin 1024, x2 (ix2 (⟨1024 * n + p.val, by have := p.isLt; omega⟩ : Fin 16384) k) * u (ix2 k r)
  refine Finset.sum_congr rfl fun k _ => ?_
  rw [hx, hu]

/-! ## What a point writes back, and the whole array -/

/-- Point t writes back row tile t of x2·U1. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (projArr (V c main_v1) (V c main_v2)) := by
  show (cfg0.win 2).cut (grid0.coords t) ((dat0 (F := Ideal) V c).after 2 t) = _
  rw [after0_2]
  unfold out0_2
  rw [View.canon_unit_zero zeroOffsets]
  simp only [View.ld_unit_zero (S := S1024x1024) zeroOffsets, View.ld_unit_zero (S := S1024x256) zeroOffsets]
  obtain ⟨-, -, -, -, e4, e5⟩ := tile_index t
  have ht : t.val < 16 := by have h := t.isLt; have hN : cfg0.N = 16 := N_0; omega
  funext y
  obtain ⟨p, r, rfl⟩ : ∃ (p : Fin 1024) (r : Fin 256), y = ix2 p r := ⟨y 0, y 1, eq_ix2 y⟩
  show k0_pay1 (F := Ideal) (iblk0 V c 0 t) (iblk0 V c 1 t) (ix2 p r)
    = projArr (V c main_v1) (V c main_v2) (((cfg0.win 2).blk t).view.emb (ix2 p r))
  have hemb : ((cfg0.win 2).blk t).view.emb (ix2 p r)
      = (ix2 (⟨1024 * t.val + p.val, by have := p.isLt; omega⟩ : Fin 16384) r : S16384x256.Idx) := by
    funext a
    apply Fin.ext
    match a with
    | ⟨0, _⟩ => show win0_2.index t (0 : Fin 2) * 1024 + 1 * p.val = 1024 * t.val + p.val; rw [e4]; omega
    | ⟨1, _⟩ => show win0_2.index t (1 : Fin 2) * 256 + 1 * r.val = r.val; rw [e5]; omega
  rw [hemb]
  exact tile_eq (V c main_v1) (V c main_v2) t.val ht (iblk0 V c 0 t) (iblk0 V c 1 t)
    (fun p k => xtile_apply V c t (ix2 p k) _ rfl rfl) (fun k r => utile_apply V c t (ix2 k r)) p r

/-- An index of P is in point t's tile iff each coordinate is in the tile's range on its axis. -/
theorem mem_tile (t : Fin cfg0.N) (i : S16384x256.Idx) :
    i ∈ ((cfg0.win 2).blk t).view.set
      ↔ ∀ a : Fin 2, win0_2.index t a * S1024x256.size a ≤ (i a).val
          ∧ (i a).val < win0_2.index t a * S1024x256.size a + S1024x256.size a := by
  show i ∈ ((View.whole main_v8).slice (win0_2.rect t)).set ↔ _
  rw [View.set_slice_whole, Rect.mem_set_unit]
  exact Iff.rfl

/-- Row i of P is in the tile of point i / 1024. -/
theorem covered (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  have hN : cfg0.N = 16 := N_0
  let t : Fin cfg0.N := ⟨(i 0).val / 1024, by rw [hN]; omega⟩
  have htv : t.val = (i 0).val / 1024 := rfl
  obtain ⟨-, -, -, -, e4, e5⟩ := tile_index t
  refine ⟨t, flush0_2 t, ?_⟩
  rw [mem_tile]
  intro a
  match a with
  | ⟨0, _⟩ =>
    show win0_2.index t (0 : Fin 2) * 1024 ≤ (i 0).val ∧ (i 0).val < win0_2.index t (0 : Fin 2) * 1024 + 1024
    rw [e4, htv]; omega
  | ⟨1, _⟩ =>
    show win0_2.index t (1 : Fin 2) * 256 ≤ (i 1).val ∧ (i 1).val < win0_2.index t (1 : Fin 2) * 256 + 256
    rw [e5]; omega

/-- After its sixteen points the region's output array is x2·U1 of the arrays it was entered with. -/
theorem arrAt0_2 (V : (c : Dev nD) → (b : Ref sig .tc) → Buf (Elt Ideal) ((c : Thread nD τ).loc b)) (c : Dev nD) :
    (dat0 (F := Ideal) V c).arrAt 2 cfg0.N = projArr (V c main_v1) (V c main_v2) :=
  (dat0 (F := Ideal) V c).arrAt_eq_of_cover 2 (projArr (V c main_v1) (V c main_v2))
    (fun t _ => flushed_eq V c t) covered

end Cert.KernelIdeal.Val

end
-- ==== Proof.ValueKernel1.lean ====
/-
  The array the second pallas_call leaves. For each of the 16 row tiles the accumulator runs through the four F tiles;
  after the j-th it holds the sum of the first j+1 runs of 1024 terms of Σ_f gelu(P·V1 + b1)[·,f]·U2[f,·], and at
  the fourth the output tile Q·V2 + b2 is written back. So the output array is, row by row, the layer after the
  projection.
-/
import proofs.«112399_j85529978733276_1_alg».proof.Proof.FrameKernelIdeal.Region1
import proofs.«112399_j85529978733276_1_alg».proof.Proof.Payloads

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.SL.Sem
open scoped BigOperators

/-- Row i of the output from row i of P: hidden, back, outRow of the specification. -/
def flashArr (p : Vec Ideal S16384x256 .bf16) (v1 : Vec Ideal S256x4096 .bf16) (b1r : Vec Ideal S1x4096 .f32)
    (u2 : Vec Ideal S4096x256 .bf16) (v2 : Vec Ideal S256x1024 .bf16) (b2r : Vec Ideal S1x1024 .f32) : Vec Ideal S16384x1024 .f32 :=
  fun j => Cert.Spec.outRow (fun r d => v2 (ix2 r d)) (fun d => b2r (ix2 0 d))
    (Cert.Spec.back (fun f r => u2 (ix2 f r))
      (Cert.Spec.hidden (fun r f => v1 (ix2 r f)) (fun f => b1r (ix2 0 f)) (fun r => p (ix2 (j 0) r)))) (j 1)

/-! ## A sum of 4096 terms, run by run -/

/-- The j-th run of 1024 consecutive terms (j read modulo 4). -/
def runSum (g : Fin 4096 → EReal) (j : ℕ) : EReal :=
  ∑ l : Fin 1024, g (Cert.Spec.tileIdx ⟨j % 4, Nat.mod_lt _ (by decide)⟩ l)

/-- Zero plus the runs 0, …, j, added one after the other from the left. -/
def partialRuns (g : Fin 4096 → EReal) : ℕ → EReal
  | 0 => 0 + runSum g 0
  | j + 1 => partialRuns g j + runSum g (j + 1)

/-- After the fourth run the whole sum is there. -/
theorem partialRuns_three (g : Fin 4096 → EReal) : partialRuns g 3 = ∑ f : Fin 4096, g f :=
  (Cert.Spec.sum_four_tiles g).symm

/-- The term of Σ_f h f · U2 f r for a row of P: f ↦ gelu(Σ_r' P[i,r']·V1[r',f] + b1[f])·U2[f,r]. -/
def term (p : Vec Ideal S16384x256 .bf16) (v1 : Vec Ideal S256x4096 .bf16) (b1r : Vec Ideal S1x4096 .f32)
    (u2 : Vec Ideal S4096x256 .bf16) (i : Fin 16384) (r : Fin 256) (f : Fin 4096) : EReal :=
  Cert.Spec.hidden (fun r f => v1 (ix2 r f)) (fun f => b1r (ix2 0 f)) (fun r' => p (ix2 i r')) f * u2 (ix2 f r)

theorem back_eq_sum_term (p : Vec Ideal S16384x256 .bf16) (v1 : Vec Ideal S256x4096 .bf16) (b1r : Vec Ideal S1x4096 .f32)
    (u2 : Vec Ideal S4096x256 .bf16) (i : Fin 16384) (r : Fin 256) :
    Cert.Spec.back (fun f r => u2 (ix2 f r))
      (Cert.Spec.hidden (fun r f => v1 (ix2 r f)) (fun f => b1r (ix2 0 f)) (fun r' => p (ix2 i r'))) r
      = ∑ f : Fin 4096, term p v1 b1r u2 i r f := rfl

/-! ## The blocks, read off the arrays -/

section Blocks

variable (V : (c : Dev nD) → (b : Ref sig .tc) → Buf (Elt Ideal) ((c : Thread nD τ).loc b))

/-- The six input blocks at a grid point, and the six arrays they are cut from. -/
abbrev pblk (c : Dev nD) (t : Fin cfg1.N) : Vec Ideal S1024x256 .bf16 := iblk1 V c 0 t
abbrev v1blk (c : Dev nD) (t : Fin cfg1.N) : Vec Ideal S256x1024 .bf16 := iblk1 V c 1 t
abbrev b1blk (c : Dev nD) (t : Fin cfg1.N) : Vec Ideal S1x1024 .f32 := iblk1 V c 2 t
abbrev u2blk (c : Dev nD) (t : Fin cfg1.N) : Vec Ideal S1024x256 .bf16 := iblk1 V c 3 t
abbrev v2blk (c : Dev nD) (t : Fin cfg1.N) : Vec Ideal S256x1024 .bf16 := iblk1 V c 4 t
abbrev b2blk (c : Dev nD) (t : Fin cfg1.N) : Vec Ideal S1x1024 .f32 := iblk1 V c 5 t
abbrev parr (c : Dev nD) : Vec Ideal S16384x256 .bf16 := V c main_v8
abbrev v1arr (c : Dev nD) : Vec Ideal S256x4096 .bf16 := V c main_v3
abbrev b1arr (c : Dev nD) : Vec Ideal S1x4096 .f32 := V c main_v6
abbrev u2arr (c : Dev nD) : Vec Ideal S4096x256 .bf16 := V c main_v4
abbrev v2arr (c : Dev nD) : Vec Ideal S256x1024 .bf16 := V c main_v5
abbrev b2arr (c : Dev nD) : Vec Ideal S1x1024 .f32 := V c main_v7

/-- The block index of every window at a point t of the M-major grid: the M tile is t / 4, the F tile t % 4. -/
theorem idx_facts1 : ∀ t : Fin cfg1.N,
    win1_0.index t (0 : Fin 2) = t.val / 4 ∧ win1_0.index t (1 : Fin 2) = 0
    ∧ win1_1.index t (0 : Fin 2) = 0 ∧ win1_1.index t (1 : Fin 2) = t.val % 4
    ∧ win1_2.index t (0 : Fin 2) = 0 ∧ win1_2.index t (1 : Fin 2) = t.val % 4
    ∧ win1_3.index t (0 : Fin 2) = t.val % 4 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 4 ∧ win1_6.index t (1 : Fin 2) = 0 :=
  (by decide +kernel : ∀ t : Fin grid1.N, _)

/-- Row p of the P block at t is row 1024·(t/4) + p of P. -/
theorem pblk_apply (c : Dev nD) (t : Fin cfg1.N) (p : Fin 1024) (r : Fin 256) (i : Fin 16384)
    (hi : i.val = 1024 * (t.val / 4) + p.val) : pblk V c t (ix2 p r) = parr V c (ix2 i r) := by
  obtain ⟨e0, e1, -⟩ := idx_facts1 t
  show iblk1 V c 0 t (ix2 p r) = V c main_v8 (ix2 i r)
  unfold iblk1
  rw [View.read_apply]
  show V c main_v8 _ = V c main_v8 _
  congr 1
  funext a
  apply Fin.ext
  match a with
  | ⟨0, _⟩ => show win1_0.index t (0 : Fin 2) * 1024 + 1 * p.val = i.val; rw [e0]; omega
  | ⟨1, _⟩ => show win1_0.index t (1 : Fin 2) * 256 + 1 * r.val = r.val; rw [e1]; omega

/-- Column l of the V1 block at t is column 1024·(t%4) + l of V1. -/
theorem v1blk_apply (c : Dev nD) (t : Fin cfg1.N) (r : Fin 256) (l : Fin 1024) (f : Fin 4096)
    (hf : f.val = 1024 * (t.val % 4) + l.val) : v1blk V c t (ix2 r l) = v1arr V c (ix2 r f) := by
  obtain ⟨-, -, e0, e1, -⟩ := idx_facts1 t
  show iblk1 V c 1 t (ix2 r l) = V c main_v3 (ix2 r f)
  unfold iblk1
  rw [View.read_apply]
  show V c main_v3 _ = V c main_v3 _
  congr 1
  funext a
  apply Fin.ext
  match a with
  | ⟨0, _⟩ => show win1_1.index t (0 : Fin 2) * 256 + 1 * r.val = r.val; rw [e0]; omega
  | ⟨1, _⟩ => show win1_1.index t (1 : Fin 2) * 1024 + 1 * l.val = f.val; rw [e1]; omega

/-- Entry l of the b1 block at t is entry 1024·(t%4) + l of b1. -/
theorem b1blk_apply (c : Dev nD) (t : Fin cfg1.N) (l : Fin 1024) (f : Fin 4096)
    (hf : f.val = 1024 * (t.val % 4) + l.val) : b1blk V c t (ix2 0 l) = b1arr V c (ix2 0 f) := by
  obtain ⟨-, -, -, -, e0, e1, -⟩ := idx_facts1 t
  show iblk1 V c 2 t (ix2 0 l) = V c main_v6 (ix2 0 f)
  unfold iblk1
  rw [View.read_apply]
  show V c main_v6 _ = V c main_v6 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * l.val = f.val; rw [e1]; omega

/-- Row l of the U2 block at t is row 1024·(t%4) + l of U2. -/
theorem u2blk_apply (c : Dev nD) (t : Fin cfg1.N) (l : Fin 1024) (r : Fin 256) (f : Fin 4096)
    (hf : f.val = 1024 * (t.val % 4) + l.val) : u2blk V c t (ix2 l r) = u2arr V c (ix2 f r) := by
  obtain ⟨-, -, -, -, -, -, e0, e1, -⟩ := idx_facts1 t
  show iblk1 V c 3 t (ix2 l r) = V c main_v4 (ix2 f r)
  unfold iblk1
  rw [View.read_apply]
  show V c main_v4 _ = V c main_v4 _
  congr 1
  funext a
  apply Fin.ext
  match a with
  | ⟨0, _⟩ => show win1_3.index t (0 : Fin 2) * 1024 + 1 * l.val = f.val; rw [e0]; omega
  | ⟨1, _⟩ => show win1_3.index t (1 : Fin 2) * 256 + 1 * r.val = r.val; rw [e1]; omega

/-- The V2 block at any point is V2. -/
theorem v2blk_apply (c : Dev nD) (t : Fin cfg1.N) (r : Fin 256) (d : Fin 1024) :
    v2blk V c t (ix2 r d) = v2arr V c (ix2 r d) := by
  obtain ⟨-, -, -, -, -, -, -, -, e0, e1, -⟩ := idx_facts1 t
  show iblk1 V c 4 t (ix2 r d) = V c main_v5 (ix2 r d)
  unfold iblk1
  rw [View.read_apply]
  show V c main_v5 _ = V c main_v5 _
  congr 1
  funext a
  apply Fin.ext
  match a with
  | ⟨0, _⟩ => show win1_4.index t (0 : Fin 2) * 256 + 1 * r.val = r.val; rw [e0]; omega
  | ⟨1, _⟩ => show win1_4.index t (1 : Fin 2) * 1024 + 1 * d.val = d.val; rw [e1]; omega

/-- The b2 block at any point is b2. -/
theorem b2blk_apply (c : Dev nD) (t : Fin cfg1.N) (d : Fin 1024) :
    b2blk V c t (ix2 0 d) = b2arr V c (ix2 0 d) := by
  obtain ⟨-, -, -, -, -, -, -, -, -, -, e0, e1, -⟩ := idx_facts1 t
  show iblk1 V c 5 t (ix2 0 d) = V c main_v7 (ix2 0 d)
  unfold iblk1
  rw [View.read_apply]
  show V c main_v7 _ = V c main_v7 _
  congr 1
  funext a
  apply Fin.ext
  match a with
  | ⟨0, _⟩ => show win1_5.index t (0 : Fin 2) * 1 + 1 * 0 = 0; rw [e0]
  | ⟨1, _⟩ => show win1_5.index t (1 : Fin 2) * 1024 + 1 * d.val = d.val; rw [e1]; omega

/-! ## The accumulator after each point -/

/-- Runs are indexed modulo 4. -/
theorem runSum_congr (g : Fin 4096 → EReal) {a b : ℕ} (h : a % 4 = b % 4) : runSum g a = runSum g b := by
  unfold runSum
  refine Finset.sum_congr rfl fun l _ => ?_
  congr 1
  apply Fin.ext
  show 1024 * (a % 4) + l.val = 1024 * (b % 4) + l.val
  rw [h]

/-- The row of P that row p of the M tile of point t is. -/
def rowAt (t : Fin cfg1.N) (p : Fin 1024) : Fin 16384 :=
  ⟨1024 * (t.val / 4) + p.val, by have := t.isLt; have hN : cfg1.N = 64 := N_1; have := p.isLt; omega⟩

/-- What the update at point t adds at (p, r): the (t % 4)-th run of row 1024·(t/4) + p's sum over f. -/
theorem upd_sum (c : Dev nD) (t : Fin cfg1.N) (p : Fin 1024) (r : Fin 256) :
    ∑ l : Fin 1024, Cert.Spec.gelu ((∑ r' : Fin 256, pblk V c t (ix2 p r') * v1blk V c t (ix2 r' l)) + b1blk V c t (ix2 0 l))
        * u2blk V c t (ix2 l r)
      = runSum (term (parr V c) (v1arr V c) (b1arr V c) (u2arr V c) (rowAt t p) r) t.val := by
  unfold runSum
  refine Finset.sum_congr rfl fun l _ => ?_
  have hf : (Cert.Spec.tileIdx ⟨t.val % 4, Nat.mod_lt _ (by decide)⟩ l).val = 1024 * (t.val % 4) + l.val := rfl
  unfold term Cert.Spec.hidden
  rw [u2blk_apply V c t l r _ hf, b1blk_apply V c t l _ hf]
  congr 3
  refine Finset.sum_congr rfl fun r' _ => ?_
  rw [pblk_apply V c t p r' (rowAt t p) rfl, v1blk_apply V c t r' l _ hf]

/-- After point n the accumulator at (p, r) is zero plus the runs 0, …, n % 4 of the row's sum over f. -/
theorem scAt_apply (c : Dev nD) : ∀ (n : ℕ) (hn : n < cfg1.N) (p : Fin 1024) (r : Fin 256),
    scAt V c n hn (ix2 p r)
      = partialRuns (term (parr V c) (v1arr V c) (b1arr V c) (u2arr V c) (rowAt ⟨n, hn⟩ p) r) (n % 4) := by
  intro n
  induction n with
  | zero =>
    intro hn p r
    refine (congrFun (scAt_first V c ⟨0, hn⟩ rfl) (ix2 p r)).trans ?_
    refine (congrFun (scFirst_eq (F := Ideal) (pblk V c ⟨0, hn⟩) (v1blk V c ⟨0, hn⟩) (b1blk V c ⟨0, hn⟩) (u2blk V c ⟨0, hn⟩)) (ix2 p r)).trans ?_
    refine (pay3_apply (pblk V c ⟨0, hn⟩) (v1blk V c ⟨0, hn⟩) (b1blk V c ⟨0, hn⟩) (u2blk V c ⟨0, hn⟩) (k1_pay2 (F := Ideal)) p r).trans ?_
    rw [pay2_apply, upd_sum]
    rfl
  | succ k ih =>
    intro hn p r
    by_cases h0 : (k + 1) % 4 = 0
    · refine (congrFun (scAt_first V c ⟨k + 1, hn⟩ h0) (ix2 p r)).trans ?_
      refine (congrFun (scFirst_eq (F := Ideal) (pblk V c ⟨k + 1, hn⟩) (v1blk V c ⟨k + 1, hn⟩) (b1blk V c ⟨k + 1, hn⟩) (u2blk V c ⟨k + 1, hn⟩)) (ix2 p r)).trans ?_
      refine (pay3_apply (pblk V c ⟨k + 1, hn⟩) (v1blk V c ⟨k + 1, hn⟩) (b1blk V c ⟨k + 1, hn⟩) (u2blk V c ⟨k + 1, hn⟩) (k1_pay2 (F := Ideal)) p r).trans ?_
      rw [pay2_apply, upd_sum, h0]
      show 0 + runSum _ (k + 1) = 0 + runSum _ 0
      rw [runSum_congr _ (show (k + 1) % 4 = 0 % 4 from h0)]
    · refine (congrFun (scAt_next V c ⟨k + 1, hn⟩ h0) (ix2 p r)).trans ?_
      refine (congrFun (scUpd_eq (F := Ideal) (pblk V c ⟨k + 1, hn⟩) (v1blk V c ⟨k + 1, hn⟩) (b1blk V c ⟨k + 1, hn⟩) (u2blk V c ⟨k + 1, hn⟩)
        (scAt V c k (Nat.lt_of_succ_lt hn))) (ix2 p r)).trans ?_
      refine (pay3_apply (pblk V c ⟨k + 1, hn⟩) (v1blk V c ⟨k + 1, hn⟩) (b1blk V c ⟨k + 1, hn⟩) (u2blk V c ⟨k + 1, hn⟩)
        (scAt V c k (Nat.lt_of_succ_lt hn)) p r).trans ?_
      rw [ih (Nat.lt_of_succ_lt hn) p r, upd_sum]
      have hrow : rowAt ⟨k, Nat.lt_of_succ_lt hn⟩ p = rowAt ⟨k + 1, hn⟩ p := by
        apply Fin.ext
        show 1024 * (k / 4) + p.val = 1024 * ((k + 1) / 4) + p.val
        omega
      have hmod : (k + 1) % 4 = k % 4 + 1 := by omega
      rw [hrow, hmod]
      show _ + runSum _ (k + 1) = _ + runSum _ (k % 4 + 1)
      rw [runSum_congr _ (show (k + 1) % 4 = (k % 4 + 1) % 4 from by omega)]

/-! ## The output tile at a point that writes back -/

/-- At the last F tile of an M tile the stored tile is, at (p, d), the layer's output for row 1024·(t/4) + p at d: the
    accumulator there holds all four runs, that is Σ_f over the 4096 columns, and the tile is Q·V2 + b2 of it. -/
theorem outAt_apply (c : Dev nD) (t : Fin cfg1.N) (h3 : t.val % 4 = 3) (p : Fin 1024) (d : Fin 1024) :
    outAt V c t (ix2 p d)
      = flashArr (parr V c) (v1arr V c) (b1arr V c) (u2arr V c) (v2arr V c) (b2arr V c) (ix2 (rowAt t p) d) := by
  have h0 : ¬t.val % 4 = 0 := by omega
  have hsc : k1_pay3 (F := Ideal) (pblk V c t) (v1blk V c t) (b1blk V c t) (u2blk V c t)
      (scAt V c (t.val - 1) (Nat.lt_of_le_of_lt (Nat.sub_le _ _) t.isLt)) = scAt V c t.val t.isLt :=
    ((scAt_next V c t h0).trans (scUpd_eq (F := Ideal) (pblk V c t) (v1blk V c t) (b1blk V c t) (u2blk V c t)
      (scAt V c (t.val - 1) (Nat.lt_of_le_of_lt (Nat.sub_le _ _) t.isLt)))).symm
  unfold outAt
  refine (congrFun (outLast_eq (F := Ideal) (pblk V c t) (v1blk V c t) (b1blk V c t) (u2blk V c t) (v2blk V c t) (b2blk V c t)
    (scAt V c (t.val - 1) (Nat.lt_of_le_of_lt (Nat.sub_le _ _) t.isLt))) (ix2 p d)).trans ?_
  rw [hsc]
  refine (pay1_apply (v2blk V c t) (scAt V c t.val t.isLt) (b2blk V c t) p d).trans ?_
  unfold flashArr Cert.Spec.outRow
  rw [b2blk_apply V c t d]
  congr 1
  refine Finset.sum_congr rfl fun r _ => ?_
  rw [v2blk_apply V c t r d, scAt_apply V c t.val t.isLt p r, h3, partialRuns_three]
  rfl

/-- What a point with t % 4 = 3 writes back is its block of the layer's output array. -/
theorem flushed1_6_eq (c : Dev nD) (t : Fin cfg1.N) (h3 : t.val % 4 = 3) :
    (dat1 (F := Ideal) V c).flushed 6 t
      = ((cfg1.win 6).blk t).view.read (Elt Ideal)
          (flashArr (parr V c) (v1arr V c) (b1arr V c) (u2arr V c) (v2arr V c) (b2arr V c)) := by
  show (cfg1.win 6).cut (grid1.coords t) ((dat1 V c).after 6 t) = _
  rw [after1_6]
  funext j
  obtain ⟨p, d, rfl⟩ : ∃ (p : Fin 1024) (d : Fin 1024), j = ix2 p d := ⟨j 0, j 1, eq_ix2 j⟩
  rw [View.read_apply]
  refine (outAt_apply V c t h3 p d).trans ?_
  show flashArr _ _ _ _ _ _ _ = flashArr _ _ _ _ _ _ _
  congr 1
  obtain ⟨-, -, -, -, -, -, -, -, -, -, -, -, e0, e1⟩ := idx_facts1 t
  funext a
  apply Fin.ext
  match a with
  | ⟨0, _⟩ => show 1024 * (t.val / 4) + p.val = win1_6.index t (0 : Fin 2) * 1024 + 1 * p.val; rw [e0]; omega
  | ⟨1, _⟩ => show d.val = win1_6.index t (1 : Fin 2) * 1024 + 1 * d.val; rw [e1]; omega

/-! ## The written blocks tile the array -/

/-- An index of the output array is in point t's block iff each coordinate is in the block's range on its axis. -/
theorem mem_blk1_6 (t : Fin cfg1.N) (i : S16384x1024.Idx) :
    i ∈ ((cfg1.win 6).blk t).view.set
      ↔ ∀ a : Fin 2, win1_6.index t a * S1024x1024.size a ≤ (i a).val
          ∧ (i a).val < win1_6.index t a * S1024x1024.size a + S1024x1024.size a := by
  show i ∈ ((View.whole main_v9).slice (win1_6.rect t)).set ↔ _
  rw [View.set_slice_whole, Rect.mem_set_unit]
  exact Iff.rfl

/-- Row i of the output array is written back by the last point of its M tile, t = 4·(i / 1024) + 3. -/
theorem cover1_6 (i : S16384x1024.Idx) :
    ∃ t : Fin cfg1.N, (cfg1.win 6).flush t = true ∧ i ∈ ((cfg1.win 6).blk t).view.set := by
  have hN : cfg1.N = 64 := N_1
  have hi0 : (i 0).val < 16384 := (i 0).isLt
  have hi1 : (i 1).val < 1024 := (i 1).isLt
  have ht : 4 * ((i 0).val / 1024) + 3 < cfg1.N := by omega
  obtain ⟨-, -, -, -, -, -, -, -, -, -, -, -, e0, e1⟩ := idx_facts1 ⟨4 * ((i 0).val / 1024) + 3, ht⟩
  have e0' : win1_6.index ⟨4 * ((i 0).val / 1024) + 3, ht⟩ (0 : Fin 2) = (4 * ((i 0).val / 1024) + 3) / 4 := e0
  refine ⟨⟨4 * ((i 0).val / 1024) + 3, ht⟩, (flush1_6 _).mpr (by show (4 * ((i 0).val / 1024) + 3) % 4 = 3; omega), ?_⟩
  rw [mem_blk1_6]
  intro a
  match a with
  | ⟨0, _⟩ =>
    show win1_6.index ⟨4 * ((i 0).val / 1024) + 3, ht⟩ (0 : Fin 2) * 1024 ≤ (i 0).val
      ∧ (i 0).val < win1_6.index ⟨4 * ((i 0).val / 1024) + 3, ht⟩ (0 : Fin 2) * 1024 + 1024
    rw [e0']; omega
  | ⟨1, _⟩ =>
    show win1_6.index ⟨4 * ((i 0).val / 1024) + 3, ht⟩ (1 : Fin 2) * 1024 ≤ (i 1).val
      ∧ (i 1).val < win1_6.index ⟨4 * ((i 0).val / 1024) + 3, ht⟩ (1 : Fin 2) * 1024 + 1024
    rw [e1]; omega

end Blocks

/-- After its 64 points the region's output array is the layer, after the projection, of the arrays it was entered with. -/
theorem arrAt1_6 (V : (c : Dev nD) → (b : Ref sig .tc) → Buf (Elt Ideal) ((c : Thread nD τ).loc b)) (c : Dev nD) :
    (dat1 (F := Ideal) V c).arrAt 6 cfg1.N
      = flashArr (V c main_v8) (V c main_v3) (V c main_v6) (V c main_v4) (V c main_v5) (V c main_v7) :=
  (dat1 (F := Ideal) V c).arrAt_eq_of_cover 6
    (flashArr (V c main_v8) (V c main_v3) (V c main_v6) (V c main_v4) (V c main_v5) (V c main_v7))
    (fun t hf => flushed1_6_eq V c t ((flush1_6 t).mp hf)) cover1_6

end Cert.KernelIdeal.Val

end
-- ==== Proof.KernelValue.lean ====
/-
  The idealized kernel program's result as a function of its arguments. The host lines before the two pallas_calls
  only re-lay the arguments (x as 16384 rows, the biases as rows of one line) and change float formats, which is the
  identity on the extended reals; the first pallas_call leaves P = x2·U1, the second the layer after the projection,
  row by row; the last line re-lays the 16384 rows as [4, 4096, ·]. Row 4096·b + s of the re-laid x is row (b, s) of x,
  so entry (b, s, d) of the result is row (b, s) of x through the layer, at d.
-/
import proofs.«112399_j85529978733276_1_alg».proof.Proof.FrameKernelIdeal.MainRun
import proofs.«112399_j85529978733276_1_alg».proof.Proof.ValueKernel0
import proofs.«112399_j85529978733276_1_alg».proof.Proof.ValueKernel1
import proofs.«112399_j85529978733276_1_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frame Idealize.ShloMosaic.StableHlo
open Idealize.ShloMosaic Idealize.ShloMosaic.TcCoe Idealize.ShloMosaic.ValueIdx
open Idealize.SL.Sem
open scoped BigOperators

variable (m : (ℓ : Loc nD τ sig) → Buf (Elt Ideal) ℓ)

/-! ## The host lines before the first pallas_call -/

theorem entry_v1 (c : Dev nD) :
    (Frame.V1 m c main_v1 : S16384x1024.Idx → EReal) = shapeCast S16384x1024 (m ((c.tc : Thread nD τ).loc main_arg0)) shapeCasts_S4x4096x1024_S16384x1024 := by
  show StableHlo.after hostOps0 (W0 m c) (Proc.devRef .tc main_v1) = _
  after_results
  rfl
theorem entry_v2 (c : Dev nD) : (Frame.V1 m c main_v2 : S1024x256.Idx → EReal) = (m ((c.tc : Thread nD τ).loc main_arg1)) := by
  show StableHlo.after hostOps0 (W0 m c) (Proc.devRef .tc main_v2) = _
  after_results
  rfl
theorem entry_v3 (c : Dev nD) : (Frame.V1 m c main_v3 : S256x4096.Idx → EReal) = (m ((c.tc : Thread nD τ).loc main_arg2)) := by
  show StableHlo.after hostOps0 (W0 m c) (Proc.devRef .tc main_v3) = _
  after_results
  rfl
theorem entry_v4 (c : Dev nD) : (Frame.V1 m c main_v4 : S4096x256.Idx → EReal) = (m ((c.tc : Thread nD τ).loc main_arg4)) := by
  show StableHlo.after hostOps0 (W0 m c) (Proc.devRef .tc main_v4) = _
  after_results
  rfl
theorem entry_v5 (c : Dev nD) : (Frame.V1 m c main_v5 : S256x1024.Idx → EReal) = (m ((c.tc : Thread nD τ).loc main_arg5)) := by
  show StableHlo.after hostOps0 (W0 m c) (Proc.devRef .tc main_v5) = _
  after_results
  rfl
theorem entry_v6 (c : Dev nD) :
    (Frame.V1 m c main_v6 : S1x4096.Idx → EReal) = shapeCast S1x4096 (m ((c.tc : Thread nD τ).loc main_arg3)) shapeCasts_S4096_S1x4096 := by
  show StableHlo.after hostOps0 (W0 m c) (Proc.devRef .tc main_v6) = _
  after_results
  rfl
theorem entry_v7 (c : Dev nD) :
    (Frame.V1 m c main_v7 : S1x1024.Idx → EReal) = shapeCast S1x1024 (m ((c.tc : Thread nD τ).loc main_arg6)) shapeCasts_S1024_S1x1024 := by
  show StableHlo.after hostOps0 (W0 m c) (Proc.devRef .tc main_v7) = _
  after_results
  rfl

/-! ## The last line -/

theorem exit_v10 (c : Dev nD) :
    (W4 m c (Proc.devRef .tc main_v10) : S4x4096x1024.Idx → EReal)
      = shapeCast S4x4096x1024 (W3 m c (Proc.devRef .tc main_v9) : S16384x1024.Idx → EReal) shapeCasts_S16384x1024_S4x4096x1024 := by
  show StableHlo.after hostOps2 (W3 m c) (Proc.devRef .tc main_v10) = _
  after_results
  rfl

/-! ## The two regions' arrays through the valuations -/

/-- What the second pallas_call is entered with: P from the first, the other operands as the host lines left them. -/
theorem mid_v8 (c : Dev nD) :
    (Frame.V2 m c main_v8 : S16384x256.Idx → EReal) = projArr (Frame.V1 m c main_v1) (Frame.V1 m c main_v2) :=
  (W2_arr m c 2).trans (arrAt0_2 (Frame.V1 m) c)
theorem mid_v3 (c : Dev nD) : Frame.V2 m c main_v3 = Frame.V1 m c main_v3 := W2_of_ne m c main_v3 (by decide)
theorem mid_v4 (c : Dev nD) : Frame.V2 m c main_v4 = Frame.V1 m c main_v4 := W2_of_ne m c main_v4 (by decide)
theorem mid_v5 (c : Dev nD) : Frame.V2 m c main_v5 = Frame.V1 m c main_v5 := W2_of_ne m c main_v5 (by decide)
theorem mid_v6 (c : Dev nD) : Frame.V2 m c main_v6 = Frame.V1 m c main_v6 := W2_of_ne m c main_v6 (by decide)
theorem mid_v7 (c : Dev nD) : Frame.V2 m c main_v7 = Frame.V1 m c main_v7 := W2_of_ne m c main_v7 (by decide)

/-- What the second pallas_call leaves in its output array. -/
theorem out_v9 (c : Dev nD) :
    (W3 m c (Proc.devRef .tc main_v9) : S16384x1024.Idx → EReal)
      = flashArr (projArr (shapeCast S16384x1024 (m ((c.tc : Thread nD τ).loc main_arg0)) shapeCasts_S4x4096x1024_S16384x1024) (m ((c.tc : Thread nD τ).loc main_arg1)))
          (m ((c.tc : Thread nD τ).loc main_arg2)) (shapeCast S1x4096 (m ((c.tc : Thread nD τ).loc main_arg3)) shapeCasts_S4096_S1x4096) (m ((c.tc : Thread nD τ).loc main_arg4)) (m ((c.tc : Thread nD τ).loc main_arg5))
          (shapeCast S1x1024 (m ((c.tc : Thread nD τ).loc main_arg6)) shapeCasts_S1024_S1x1024) := by
  refine ((W3_arr m c 6).trans (arrAt1_6 (Frame.V2 m) c)).trans ?_
  rw [mid_v8, mid_v3, mid_v4, mid_v5, mid_v6, mid_v7, entry_v1, entry_v2, entry_v3, entry_v4, entry_v5, entry_v6, entry_v7]

/-! ## Re-laying read at an entry -/

/-- Row 4096·b + s of the re-laid x is row (b, s) of x. -/
theorem rows_apply (x : S4x4096x1024.Idx → EReal) (b : Fin 4) (s : Fin 4096) (k : Fin 1024) :
    shapeCast S16384x1024 x shapeCasts_S4x4096x1024_S16384x1024 (ix2 (⟨4096 * b.val + s.val, by have := b.isLt; have := s.isLt; omega⟩ : Fin 16384) k)
      = x (ix3 b s k) := by
  refine shapeCast_apply x _ _ (ix3 b s k) ?_
  rw [Shape.rowMajor_val_three, Shape.rowMajor_val_two]
  show (b.val * 4096 + s.val) * 1024 + k.val = (4096 * b.val + s.val) * 1024 + k.val
  omega

/-- A vector laid as a row of one line. -/
theorem row4096_apply (v : S4096.Idx → EReal) (f : Fin 4096) :
    shapeCast S1x4096 v shapeCasts_S4096_S1x4096 (ix2 (0 : Fin 1) f) = v (ix1 f) := by
  refine shapeCast_apply v _ _ (ix1 f) ?_
  rw [Shape.rowMajor_val_two, Shape.rowMajor_val_one]
  show f.val = 0 * 4096 + f.val
  omega
theorem row1024_apply (v : S1024.Idx → EReal) (d : Fin 1024) :
    shapeCast S1x1024 v shapeCasts_S1024_S1x1024 (ix2 (0 : Fin 1) d) = v (ix1 d) := by
  refine shapeCast_apply v _ _ (ix1 d) ?_
  rw [Shape.rowMajor_val_two, Shape.rowMajor_val_one]
  show d.val = 0 * 1024 + d.val
  omega

/-- Entry (b, s, d) of the re-laid result is row 4096·b + s, column d of the 16384-row array. -/
theorem unrows_apply (y : S16384x1024.Idx → EReal) (b : Fin 4) (s : Fin 4096) (d : Fin 1024) :
    shapeCast S4x4096x1024 y shapeCasts_S16384x1024_S4x4096x1024 (ix3 b s d)
      = y (ix2 (⟨4096 * b.val + s.val, by have := b.isLt; have := s.isLt; omega⟩ : Fin 16384) d) := by
  refine shapeCast_apply y _ _ _ ?_
  rw [Shape.rowMajor_val_three, Shape.rowMajor_val_two]
  show (4096 * b.val + s.val) * 1024 + d.val = (b.val * 4096 + s.val) * 1024 + d.val
  omega

/-! ## The result -/

/-- The idealized kernel program's result array is the specification's. -/
theorem kernel_value (c : Dev nD) :
    (W4 m c (Proc.devRef .tc main_v10) : S4x4096x1024.Idx → EReal)
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [exit_v10, out_v9]
  funext i
  obtain ⟨b, s, d, rfl⟩ : ∃ (b : Fin 4) (s : Fin 4096) (d : Fin 1024), i = ix3 b s d := ⟨i 0, i 1, i 2, eq_ix3 i⟩
  rw [unrows_apply]
  unfold flashArr projArr Cert.Spec.G Cert.Spec.layer
  simp only [rows_apply, row4096_apply, row1024_apply]

end Cert.KernelIdeal.Val

end
-- ==== Proof.RefValue.lean ====
import proofs.«112399_j85529978733276_1_alg».proof.Proof.Gen.ReferenceIdeal.Read
import proofs.«112399_j85529978733276_1_alg».proof.Proof.Spec
import Idealize.ShloMosaic.Lib.ValueIdx
import Idealize.ShloMosaic.PureOps.Ideal.Laws

/-
  The reference program, read one entry at a time, is the layer of the specification applied to the
  entry's row. Inside-out: the rank-256 projection of a row; the pre-activation (the projection through
  V1 plus the bias); the hidden value (gelu of the pre-activation, with the cube spelt (s·s)·s as the
  specification spells it); the way back to rank 256; and the output row with its bias.
-/

noncomputable section

namespace Cert.ReferenceIdeal.RefValue

open Cert.ReferenceIdeal Cert.ReferenceIdeal.Read Idealize.ShloMosaic Idealize.ShloMosaic.ValueIdx
open scoped BigOperators

/-! ## Where each contraction and each broadcast reads its operands, by coordinates -/

/-- x·U1 at (b, t, r) reads x at (b, t, k) … -/
theorem lidx_v0 (b : Fin 4) (t : Fin 4096) (r : Fin 256) (k : Fin 1024) :
    lidx_main_v0 (ix3 b t r) k = ix3 b t k :=
  funext fun a => Fin.ext (by match a with | ⟨0, _⟩ => rfl | ⟨1, _⟩ => rfl | ⟨2, _⟩ => rfl)
/-- … and U1 at (k, r). -/
theorem ridx_v0 (b : Fin 4) (t : Fin 4096) (r : Fin 256) (k : Fin 1024) :
    ridx_main_v0 (ix3 b t r) k = ix2 k r :=
  funext fun a => Fin.ext (by match a with | ⟨0, _⟩ => rfl | ⟨1, _⟩ => rfl)
/-- p·V1 at (b, t, f) reads p at (b, t, r) … -/
theorem lidx_v1 (b : Fin 4) (t : Fin 4096) (f : Fin 4096) (r : Fin 256) :
    lidx_main_v1 (ix3 b t f) r = ix3 b t r :=
  funext fun a => Fin.ext (by match a with | ⟨0, _⟩ => rfl | ⟨1, _⟩ => rfl | ⟨2, _⟩ => rfl)
/-- … and V1 at (r, f). -/
theorem ridx_v1 (b : Fin 4) (t : Fin 4096) (f : Fin 4096) (r : Fin 256) :
    ridx_main_v1 (ix3 b t f) r = ix2 r f :=
  funext fun a => Fin.ext (by match a with | ⟨0, _⟩ => rfl | ⟨1, _⟩ => rfl)
/-- The bias b1, spread over (b, t), is read at f. -/
theorem idx_v2v3 (b : Fin 4) (t : Fin 4096) (f : Fin 4096) :
    idx_main_v2 (idx_main_v3 (ix3 b t f)) = ix1 f :=
  funext fun a => Fin.ext (by match a with | ⟨0, _⟩ => rfl)
/-- h·U2 at (b, t, r) reads h at (b, t, f) … -/
theorem lidx_v18 (b : Fin 4) (t : Fin 4096) (r : Fin 256) (f : Fin 4096) :
    lidx_main_v18 (ix3 b t r) f = ix3 b t f :=
  funext fun a => Fin.ext (by match a with | ⟨0, _⟩ => rfl | ⟨1, _⟩ => rfl | ⟨2, _⟩ => rfl)
/-- … and U2 at (f, r). -/
theorem ridx_v18 (b : Fin 4) (t : Fin 4096) (r : Fin 256) (f : Fin 4096) :
    ridx_main_v18 (ix3 b t r) f = ix2 f r :=
  funext fun a => Fin.ext (by match a with | ⟨0, _⟩ => rfl | ⟨1, _⟩ => rfl)
/-- q·V2 at (b, t, d) reads q at (b, t, r) … -/
theorem lidx_v19 (b : Fin 4) (t : Fin 4096) (d : Fin 1024) (r : Fin 256) :
    lidx_main_v19 (ix3 b t d) r = ix3 b t r :=
  funext fun a => Fin.ext (by match a with | ⟨0, _⟩ => rfl | ⟨1, _⟩ => rfl | ⟨2, _⟩ => rfl)
/-- … and V2 at (r, d). -/
theorem ridx_v19 (b : Fin 4) (t : Fin 4096) (d : Fin 1024) (r : Fin 256) :
    ridx_main_v19 (ix3 b t d) r = ix2 r d :=
  funext fun a => Fin.ext (by match a with | ⟨0, _⟩ => rfl | ⟨1, _⟩ => rfl)
/-- The bias b2, spread over (b, t), is read at d. -/
theorem idx_v20v21 (b : Fin 4) (t : Fin 4096) (d : Fin 1024) :
    idx_main_v20 (idx_main_v21 (ix3 b t d)) = ix1 d :=
  funext fun a => Fin.ext (by match a with | ⟨0, _⟩ => rfl)

/-! ## The five stages at an entry -/

/-- The first contraction at (b, t, r) is the projection of row (b, t) at r. -/
theorem proj_apply (x0 : (⟨S4x4096x1024, .f32⟩ : BufTy).Contents (Elt Ideal)) (x1 : (⟨S1024x256, .f32⟩ : BufTy).Contents (Elt Ideal))
    (b : Fin 4) (t : Fin 4096) (r : Fin 256) :
    val_main_v0 (F := Ideal) x0 x1 (ix3 b t r)
      = Cert.Spec.proj (fun k r => x1 (ix2 k r)) (fun k => x0 (ix3 b t k)) r := by
  rw [val_main_v0_apply]
  unfold Cert.Spec.proj
  refine Finset.sum_congr rfl fun k _ => ?_
  rw [lidx_v0, ridx_v0]

/-- The pre-activation at (b, t, f): the projected row through V1 at f, plus b1 f. -/
theorem pre_apply (x0 : (⟨S4x4096x1024, .f32⟩ : BufTy).Contents (Elt Ideal)) (x1 : (⟨S1024x256, .f32⟩ : BufTy).Contents (Elt Ideal)) (x2 : (⟨S256x4096, .f32⟩ : BufTy).Contents (Elt Ideal)) (x3 : (⟨S4096, .f32⟩ : BufTy).Contents (Elt Ideal))
    (b : Fin 4) (t : Fin 4096) (f : Fin 4096) :
    val_main_v4 (F := Ideal) x0 x1 x2 x3 (ix3 b t f)
      = (∑ r : Fin 256, Cert.Spec.proj (fun k r => x1 (ix2 k r)) (fun k => x0 (ix3 b t k)) r * x2 (ix2 r f))
          + x3 (ix1 f) := by
  rw [val_main_v4_apply, val_main_v1_apply, val_main_v3_apply, val_main_v2_apply, Ideal.addf_def, idx_v2v3]
  congr 1
  refine Finset.sum_congr rfl fun r _ => ?_
  rw [lidx_v1, ridx_v1, proj_apply]

/-- The hidden value at (b, t, f) is gelu of the pre-activation. -/
theorem hidden_apply (x0 : (⟨S4x4096x1024, .f32⟩ : BufTy).Contents (Elt Ideal)) (x1 : (⟨S1024x256, .f32⟩ : BufTy).Contents (Elt Ideal)) (x2 : (⟨S256x4096, .f32⟩ : BufTy).Contents (Elt Ideal)) (x3 : (⟨S4096, .f32⟩ : BufTy).Contents (Elt Ideal))
    (b : Fin 4) (t : Fin 4096) (f : Fin 4096) :
    val_main_v17 (F := Ideal) x0 x1 x2 x3 (ix3 b t f)
      = Cert.Spec.hidden (fun r f => x2 (ix2 r f)) (fun f => x3 (ix1 f))
          (Cert.Spec.proj (fun k r => x1 (ix2 k r)) (fun k => x0 (ix3 b t k))) f := by
  have hs := pre_apply x0 x1 x2 x3 b t f
  rw [val_main_v17_apply, val_main_v16_apply, val_main_v15_apply, val_main_cst_2_apply, val_main_v14_apply,
    val_main_v13_apply, val_main_cst_1_apply, val_main_v12_apply, val_main_v11_apply, val_main_v10_apply,
    val_main_cst_0_apply, val_main_v9_apply, val_main_v8_apply, val_main_v7_apply, val_main_cst_apply,
    val_main_v6_apply, val_main_v5_apply]
  simp only [Ideal.mulf_def, Ideal.addf_def, Ideal.hostUnary_tanh_def, Ideal.ofBits_def]
  unfold Cert.Spec.hidden Cert.Spec.gelu Cert.Spec.cCube Cert.Spec.cScale Cert.Spec.cOne Cert.Spec.cHalf
  rw [hs]

/-- The third contraction at (b, t, r) is the hidden row of (b, t) taken back to rank 256, at r. -/
theorem back_apply (x0 : (⟨S4x4096x1024, .f32⟩ : BufTy).Contents (Elt Ideal)) (x1 : (⟨S1024x256, .f32⟩ : BufTy).Contents (Elt Ideal)) (x2 : (⟨S256x4096, .f32⟩ : BufTy).Contents (Elt Ideal)) (x3 : (⟨S4096, .f32⟩ : BufTy).Contents (Elt Ideal)) (x4 : (⟨S4096x256, .f32⟩ : BufTy).Contents (Elt Ideal))
    (b : Fin 4) (t : Fin 4096) (r : Fin 256) :
    val_main_v18 (F := Ideal) x0 x1 x2 x3 x4 (ix3 b t r)
      = Cert.Spec.back (fun f r => x4 (ix2 f r))
          (Cert.Spec.hidden (fun r f => x2 (ix2 r f)) (fun f => x3 (ix1 f))
            (Cert.Spec.proj (fun k r => x1 (ix2 k r)) (fun k => x0 (ix3 b t k)))) r := by
  rw [val_main_v18_apply]
  unfold Cert.Spec.back
  refine Finset.sum_congr rfl fun f _ => ?_
  rw [lidx_v18, ridx_v18, hidden_apply]

/-- The result at (b, t, d) is row (b, t) through the whole layer, at d. -/
theorem layer_apply (x0 : (⟨S4x4096x1024, .f32⟩ : BufTy).Contents (Elt Ideal)) (x1 : (⟨S1024x256, .f32⟩ : BufTy).Contents (Elt Ideal)) (x2 : (⟨S256x4096, .f32⟩ : BufTy).Contents (Elt Ideal)) (x3 : (⟨S4096, .f32⟩ : BufTy).Contents (Elt Ideal)) (x4 : (⟨S4096x256, .f32⟩ : BufTy).Contents (Elt Ideal)) (x5 : (⟨S256x1024, .f32⟩ : BufTy).Contents (Elt Ideal)) (x6 : (⟨S1024, .f32⟩ : BufTy).Contents (Elt Ideal))
    (b : Fin 4) (t : Fin 4096) (d : Fin 1024) :
    val_main_v22 (F := Ideal) x0 x1 x2 x3 x4 x5 x6 (ix3 b t d)
      = Cert.Spec.layer (fun k r => x1 (ix2 k r)) (fun r f => x2 (ix2 r f)) (fun f => x3 (ix1 f))
          (fun f r => x4 (ix2 f r)) (fun r d => x5 (ix2 r d)) (fun d => x6 (ix1 d))
          (fun k => x0 (ix3 b t k)) d := by
  rw [val_main_v22_apply, val_main_v19_apply, val_main_v21_apply, val_main_v20_apply, Ideal.addf_def, idx_v20v21]
  unfold Cert.Spec.layer Cert.Spec.outRow
  congr 1
  refine Finset.sum_congr rfl fun r _ => ?_
  rw [lidx_v19, ridx_v19, back_apply]

/-! ## The whole array -/

open Cert.ReferenceIdeal Cert.ReferenceIdeal.Read in
/-- The reference's result, read index by index at the ideal instance, is the row-wise layer of the specification. -/
theorem ref_eq_G (x0 : (⟨S4x4096x1024, .f32⟩ : BufTy).Contents (Elt Ideal)) (x1 : (⟨S1024x256, .f32⟩ : BufTy).Contents (Elt Ideal))
    (x2 : (⟨S256x4096, .f32⟩ : BufTy).Contents (Elt Ideal)) (x3 : (⟨S4096, .f32⟩ : BufTy).Contents (Elt Ideal))
    (x4 : (⟨S4096x256, .f32⟩ : BufTy).Contents (Elt Ideal)) (x5 : (⟨S256x1024, .f32⟩ : BufTy).Contents (Elt Ideal))
    (x6 : (⟨S1024, .f32⟩ : BufTy).Contents (Elt Ideal)) :
    Cert.ReferenceIdeal.Read.val_main_v22 (F := Ideal) x0 x1 x2 x3 x4 x5 x6 = Cert.Spec.G x0 x1 x2 x3 x4 x5 x6 := by
  funext i
  obtain ⟨b, t, d, rfl⟩ : ∃ (b : Fin 4) (t : Fin 4096) (d : Fin 1024), i = ix3 b t d := ⟨i 0, i 1, i 2, eq_ix3 i⟩
  exact layer_apply x0 x1 x2 x3 x4 x5 x6 b t d

end Cert.ReferenceIdeal.RefValue

end
-- ==== Proof.lean ====
/-
  The certificate of a low-rank feed-forward layer computed by two pallas_calls against its plain reference:
  x ↦ gelu(x·U1·V1 + b1)·U2·V2 + b2 over [4, 4096, 1024], rank 256, width 4096, gelu in its tanh form.

  The kernel program re-lays x as 16384 rows, computes P = x·U1 in a first pallas_call (row tiles of 1024), and in a
  second one, on a grid of 16 row tiles by 4 tiles of the width, accumulates Q = gelu(P·V1 + b1)·U2 tile by tile in
  a scratch buffer kept across the four tiles, storing Q·V2 + b2 at the last. On the extended reals the changes of
  float format are the identity and a sum of 4096 terms taken as four runs of 1024 added to zero is the same sum, so
  both programs compute, row by row, the layer of Proof/Spec.lean.

  The three frames: the two kernel programs' from the run of @main through its four items (Proof/FrameKernel*/),
  the reference's from its run with the result dropped. The idealization rewrote nothing, so the conjunct that says
  it is sanctioned is trivially true. The algebraic conjunct: both results are the specification's array of arguments
  that agree.
-/
import proofs.«112399_j85529978733276_1_alg».proof.Defs
import proofs.«112399_j85529978733276_1_alg».proof.Proof.Gen.Kernel
import proofs.«112399_j85529978733276_1_alg».proof.Proof.Gen.KernelIdeal
import proofs.«112399_j85529978733276_1_alg».proof.Proof.Gen.ReferenceIdeal
import proofs.«112399_j85529978733276_1_alg».proof.Proof.Gen.Pre_finite_inputs
import proofs.«112399_j85529978733276_1_alg».proof.Proof.Gen.ReferenceIdeal.Run
import proofs.«112399_j85529978733276_1_alg».proof.Proof.Gen.ReferenceIdeal.Read
import proofs.«112399_j85529978733276_1_alg».proof.Proof.FrameKernel.MainRun
import proofs.«112399_j85529978733276_1_alg».proof.Proof.FrameKernelIdeal.MainRun
import proofs.«112399_j85529978733276_1_alg».proof.Proof.KernelValue
import proofs.«112399_j85529978733276_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Frame.frame m ρ

theorem frame_kernelIdeal : Cert.frame_KernelIdeal := fun m ρ _ => Cert.KernelIdeal.Frame.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's array of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun _ h c => ⟨?_, (h c _ (Cert.KernelIdeal.Frame.mem_uc Cert.KernelIdeal.main_arg0 (by decide))).trans (Cert.KernelIdeal.Frame.W4_main_arg0 m c),
      (h c _ (Cert.KernelIdeal.Frame.mem_uc Cert.KernelIdeal.main_arg1 (by decide))).trans (Cert.KernelIdeal.Frame.W4_main_arg1 m c),
      (h c _ (Cert.KernelIdeal.Frame.mem_uc Cert.KernelIdeal.main_arg2 (by decide))).trans (Cert.KernelIdeal.Frame.W4_main_arg2 m c),
      (h c _ (Cert.KernelIdeal.Frame.mem_uc Cert.KernelIdeal.main_arg3 (by decide))).trans (Cert.KernelIdeal.Frame.W4_main_arg3 m c),
      (h c _ (Cert.KernelIdeal.Frame.mem_uc Cert.KernelIdeal.main_arg4 (by decide))).trans (Cert.KernelIdeal.Frame.W4_main_arg4 m c),
      (h c _ (Cert.KernelIdeal.Frame.mem_uc Cert.KernelIdeal.main_arg5 (by decide))).trans (Cert.KernelIdeal.Frame.W4_main_arg5 m c),
      (h c _ (Cert.KernelIdeal.Frame.mem_uc Cert.KernelIdeal.main_arg6 (by decide))).trans (Cert.KernelIdeal.Frame.W4_main_arg6 m c)⟩)
      (Cert.KernelIdeal.Frame.run_all m ρ)
    exact (h c _ (Cert.KernelIdeal.Frame.mem_uc Cert.KernelIdeal.main_v10 (by decide))).trans (Cert.KernelIdeal.Val.kernel_value m c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v22_eq, Cert.ReferenceIdeal.RefValue.ref_eq_G,
      (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
